-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S1024x1024 .f32) (main_arg3 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S_ : Shape := ⟨0, ![]⟩
abbrev S512x1024 : Shape := ⟨2, ![512, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 14
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S1024x1024 : S_.BroadcastsInDim S1024x1024 (![] : Fin 0 → Fin S1024x1024.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S1024x1024_S1024x1024_S1024x1024_1_1_0_0_n_n_wf : DotDims.WF S1024x1024 S1024x1024 S1024x1024 [1] [1] [0] [0] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .bf16 = 32 ∨ (Rect.block (s := S8192x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .bf16 = 32 ∨ (Rect.block (s := S8192x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S1024x8192, .f32⟩
  | .hbm, ⟨11, _⟩ => ⟨S8192x8192, .f32⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K.Reg0.lean ====
/-
  The first pallas_call of the program: the three projections of one block of 1024 rows of x against the three
  weight matrices, each product rounded to bf16 and stored whole into its output block.

  Everything is stated at a parameter V, the contents of the TensorCore's buffers when the call is entered.
  A grid point t stages rows [1024 t, 1024 t + 1024) of x and the whole of each weight matrix; the body leaves
  in each output's staging buffer the product of the x block with that weight, a closed function of the two
  input blocks; nothing is carried from point to point.
-/
import proofs.«416736_j36129264893953_3_alg».proof.Proof.Gen.Kernel.Launch
import proofs.«416736_j36129264893953_3_alg».proof.Proof.Gen.Kernel.Skeleton
import proofs.«416736_j36129264893953_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: the x block moves with
    the point and is fetched each time; a weight's block index never moves, so after the first point the buffer
    still holds it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every access of the body goes through: the whole [1024, 1024] buffer. -/
abbrev rW : Rect S1024x1024 := Rect.unit (s := S1024x1024) ![0, 0] S1024x1024.size inb_S1024x1024_S1024x1024_0_0

/-- What the body leaves in the q output's staging buffer: the x block times the (scaled) Wq block, rounded. -/
def outQ (x : Vec F S1024x1024 .f32) (w : Vec F S1024x1024 .bf16) : Vec F S1024x1024 .bf16 :=
  View.canon [⟨rW, k0_pay2 (View.ld x rW) (View.ld w rW)⟩]
/-- The same for k. -/
def outK (x : Vec F S1024x1024 .f32) (w : Vec F S1024x1024 .bf16) : Vec F S1024x1024 .bf16 :=
  View.canon [⟨rW, k0_pay3 (View.ld x rW) (View.ld w rW)⟩]
/-- The same for v. -/
def outV (x : Vec F S1024x1024 .f32) (w : Vec F S1024x1024 .bf16) : Vec F S1024x1024 .bf16 :=
  View.canon [⟨rW, k0_pay4 (View.ld x rW) (View.ld w rW)⟩]

/-- One store through the whole rectangle covers the buffer. -/
theorem coverW {e : EltTy} (p0 : rW.shape.Idx → Elt F e) (y : S1024x1024.Idx) :
    ∃ pc ∈ ([⟨rW, p0⟩] : List (View.Piece (Elt F) S1024x1024 e)), y ∈ pc.1.set :=
  View.cover_of_tiled [⟨rW, p0⟩] S1024x1024.size (by rfl) y

set_option maxHeartbeats 1000000 in
/-- The body on whole staging memrefs: the four inputs at their read contents, the three outputs at anything; it
    runs to the inputs as they were and each output at its product. -/
theorem sound_kernel0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1024x1024 .bf16) (harg7 : arg7.IsWhole)
    (x : Vec F S1024x1024 .f32) (wq wk wv : Vec F S1024x1024 .bf16) (K : PUnit → sProp 𝕄) :
    iprop(owns (c : Thread nD τ) arg1 fullShare x ∗ owns (c : Thread nD τ) arg2 fullShare wq
        ∗ owns (c : Thread nD τ) arg3 fullShare wk ∗ owns (c : Thread nD τ) arg4 fullShare wv
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare wq
            ∗ owns (c : Thread nD τ) arg3 fullShare wk ∗ owns (c : Thread nD τ) arg4 fullShare wv
            ∗ owns (c : Thread nD τ) arg5 fullShare (outQ x wq) ∗ owns (c : Thread nD τ) arg6 fullShare (outK x wk)
            ∗ owns (c : Thread nD τ) arg7 fullShare (outV x wv)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverW _)
  isplitl [H6]
  · iexists _; isplitr
    swap; · iexact H6
    ipureintro
    exact View.read_writes_eq_canon _ _ _ (coverW _)
  iexists _; isplitr
  swap; · iexact H7
  ipureintro
  exact View.read_writes_eq_canon _ _ _ (coverW _)

/-- The call's proof data on core c: the arrays as the call finds them; after the body at point t each input's
    buffer at its block and each output's at its product of the point's input blocks; nothing kept between
    points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline rule, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1Body.lean ====
/-
  The second pallas_call's body: one step of blocked attention.

  At a grid point (qi, ki) the body holds a block Q of 1024 query rows, a block of 512 key rows and the same 512 value
  rows, and three buffers it keeps from point to point: the running row maxima m [1024, 1], the running sums l [1024, 1]
  of the exponentials relative to them, and the running weighted sums [1024, 1024]. At ki = 0 it resets them to
  (-∞, 0, 0); at every point it moves them one step over the block; at ki = 15 it stores the weighted sums divided
  by the sums into the output block. Three cases by the two conditions; each store is of a whole buffer, so what a
  buffer holds afterwards is the last payload stored into it.
-/
import proofs.«416736_j36129264893953_3_alg».proof.Proof.Gen.Kernel.Launch
import proofs.«416736_j36129264893953_3_alg».proof.Proof.Gen.Kernel.Skeleton
import proofs.«416736_j36129264893953_3_alg».proof.Proof.Gen.Kernel.Points
import proofs.«416736_j36129264893953_3_alg».proof.Proof.K.Reg0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1Body

/-- The body's first condition: the point is the first of its row of the grid (ki = 0). -/
abbrev condFirst (i : grid1.Coords) : Prop := (Scalar.cmpi .ne (Scalar.extui (Scalar.cmpi .eq (BitVec.ofNat 32 (i 1).val) 0#32)) 0#32) = 1#1
/-- The body's second condition: the point is the last of its row of the grid (ki = 15). -/
abbrev condLast (i : grid1.Coords) : Prop := k1_cond2 i = 1#1

/-- The three buffers the body keeps between points: the row maxima, the sums, the weighted sums. -/
abbrev Sc (F : FTy → Type) [FloatOps F] : Type := Vec F S1024x1 .f32 × Vec F S1024x1 .f32 × Vec F S1024x1024 .f32

/-- What the reset leaves: -∞, 0, 0. -/
def scInit : Sc F := (k1_pay4, k1_pay5, k1_pay6)

/-- One step over a block: from the state s, the query block Q and the key and value blocks. -/
def scStep (Q : Vec F S1024x1024 .bf16) (Kb Vb : Vec F S512x1024 .bf16) (s : Sc F) : Sc F :=
  (k1_pay2 (k1_pay8 Q Kb s.1), k1_pay11 Q Kb s.1 s.1 s.2.1, k1_pay1 (k1_pay12 Q Kb s.1 s.1 Vb s.2.2))

/-- The output block from a state: the weighted sums divided by the sums. -/
def outO (s : Sc F) : Vec F S1024x1024 .f32 := k1_pay3 s.2.2 s.2.1

/-- The offsets of every access are zero. -/
theorem hz2 : (![0, 0] : Fin 2 → ℕ) = fun _ => 0 := by funext a; fin_cases a <;> rfl

/-- A list of stores whose last is of the whole buffer covers the buffer. -/
theorem cover_head {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self .., View.mem_set_unit_zero h inb y⟩

/-- What a buffer reads after the body's stores: the last store is of the whole buffer, so its payload; the payload's
    own loads are of whole buffers too. -/
local macro "close_piece" : tactic => `(tactic| (
  refine (View.read_writes_eq_canon _ _ _ ?_).trans ?_
  · intro y; exact cover_head hz2 _ _ _ y
  refine (View.canon_cons_unit_zero hz2 _ _ _).trans ?_
  sl_unfold_words
  simp only [scStep, scInit, outO, View.readAt_eq_ld, View.ld_unit_zero (S := S1024x1) hz2, View.ld_unit_zero (S := S1024x1024) hz2,
    View.ld_unit_zero (S := S512x1024) hz2, View.readCov_unit_zero (S := S1024x1) _ hz2, View.readCov_unit_zero (S := S1024x1024) _ hz2,
    View.canon_cons_unit_zero (S := S1024x1) hz2, View.canon_cons_unit_zero (S := S1024x1024) hz2]))

set_option maxHeartbeats 4000000 in
theorem sound1_B (c : Dev nD) (E : Set ℕ) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S1024x1024 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1024 .f32) (harg8 : arg8.IsWhole)
    (hc0 : ¬condFirst i) (hc1 : ¬condLast i)
    (Q : Vec F S1024x1024 .bf16) (Kb Vb : Vec F S512x1024 .bf16) (xo : Vec F S1024x1024 .f32)
    (s : Sc F) (K : PUnit → sProp 𝕄) :
    iprop(owns (c : Thread nD τ) arg2 fullShare Q ∗ owns (c : Thread nD τ) arg3 fullShare Kb
        ∗ owns (c : Thread nD τ) arg4 fullShare Vb ∗ owns (c : Thread nD τ) arg5 fullShare xo
        ∗ owns (c : Thread nD τ) arg6 fullShare s.1 ∗ owns (c : Thread nD τ) arg7 fullShare s.2.1
        ∗ owns (c : Thread nD τ) arg8 fullShare s.2.2
        ∗ (iprop(owns (c : Thread nD τ) arg2 fullShare Q ∗ owns (c : Thread nD τ) arg3 fullShare Kb
            ∗ owns (c : Thread nD τ) arg4 fullShare Vb ∗ owns (c : Thread nD τ) arg5 fullShare xo
            ∗ owns (c : Thread nD τ) arg6 fullShare (scStep Q Kb Vb s).1
            ∗ owns (c : Thread nD τ) arg7 fullShare (scStep Q Kb Vb s).2.1
            ∗ owns (c : Thread nD τ) arg8 fullShare (scStep Q Kb Vb s).2.2) -∗ K ⟨⟩))
      ⊢ wp frame (wpE (defs₀ (F := F)) Variants.none c none) E
          (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5
  obtain ⟨s1, s2, s3⟩ := s
  dsimp only at hf6 hf7 hf8
  subst hf6; subst hf7; subst hf8
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    close_piece
  isplitl [H7]
  · iexists _; isplitr
    swap; · iexact H7
    ipureintro
    close_piece
  iexists _; isplitr
  swap; · iexact H8
  ipureintro
  close_piece

set_option maxHeartbeats 4000000 in
theorem sound1_A (c : Dev nD) (E : Set ℕ) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S1024x1024 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1024 .f32) (harg8 : arg8.IsWhole)
    (hc0 : condFirst i) (hc1 : ¬condLast i)
    (Q : Vec F S1024x1024 .bf16) (Kb Vb : Vec F S512x1024 .bf16) (xo : Vec F S1024x1024 .f32) (K : PUnit → sProp 𝕄) :
    iprop(owns (c : Thread nD τ) arg2 fullShare Q ∗ owns (c : Thread nD τ) arg3 fullShare Kb
        ∗ owns (c : Thread nD τ) arg4 fullShare Vb ∗ owns (c : Thread nD τ) arg5 fullShare xo
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare Q ∗ owns (c : Thread nD τ) arg3 fullShare Kb
            ∗ owns (c : Thread nD τ) arg4 fullShare Vb ∗ owns (c : Thread nD τ) arg5 fullShare xo
            ∗ owns (c : Thread nD τ) arg6 fullShare (scStep Q Kb Vb scInit).1
            ∗ owns (c : Thread nD τ) arg7 fullShare (scStep Q Kb Vb scInit).2.1
            ∗ owns (c : Thread nD τ) arg8 fullShare (scStep Q Kb Vb scInit).2.2) -∗ K ⟨⟩))
      ⊢ wp frame (wpE (defs₀ (F := F)) Variants.none c none) E
          (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    close_piece
  isplitl [H7]
  · iexists _; isplitr
    swap; · iexact H7
    ipureintro
    close_piece
  iexists _; isplitr
  swap; · iexact H8
  ipureintro
  close_piece

set_option maxHeartbeats 4000000 in
theorem sound1_C (c : Dev nD) (E : Set ℕ) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S1024x1024 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1024 .f32) (harg8 : arg8.IsWhole)
    (hc0 : ¬condFirst i) (hc1 : condLast i)
    (Q : Vec F S1024x1024 .bf16) (Kb Vb : Vec F S512x1024 .bf16)
    (s : Sc F) (K : PUnit → sProp 𝕄) :
    iprop(owns (c : Thread nD τ) arg2 fullShare Q ∗ owns (c : Thread nD τ) arg3 fullShare Kb
        ∗ owns (c : Thread nD τ) arg4 fullShare Vb ∗ (∃ d, owns (c : Thread nD τ) arg5 fullShare d)
        ∗ owns (c : Thread nD τ) arg6 fullShare s.1 ∗ owns (c : Thread nD τ) arg7 fullShare s.2.1
        ∗ owns (c : Thread nD τ) arg8 fullShare s.2.2
        ∗ (iprop(owns (c : Thread nD τ) arg2 fullShare Q ∗ owns (c : Thread nD τ) arg3 fullShare Kb
            ∗ owns (c : Thread nD τ) arg4 fullShare Vb ∗ owns (c : Thread nD τ) arg5 fullShare (outO (scStep Q Kb Vb s))
            ∗ owns (c : Thread nD τ) arg6 fullShare (scStep Q Kb Vb s).1
            ∗ owns (c : Thread nD τ) arg7 fullShare (scStep Q Kb Vb s).2.1
            ∗ owns (c : Thread nD τ) arg8 fullShare (scStep Q Kb Vb s).2.2) -∗ K ⟨⟩))
      ⊢ wp frame (wpE (defs₀ (F := F)) Variants.none c none) E
          (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf2; subst hf3; subst hf4
  obtain ⟨s1, s2, s3⟩ := s
  dsimp only at hf6 hf7 hf8
  subst hf6; subst hf7; subst hf8
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    close_piece
  isplitl [H6]
  · iexists _; isplitr
    swap; · iexact H6
    ipureintro
    close_piece
  isplitl [H7]
  · iexists _; isplitr
    swap; · iexact H7
    ipureintro
    close_piece
  iexists _; isplitr
  swap; · iexact H8
  ipureintro
  close_piece

end Region1Body

end Cert.Kernel.Hand

end
-- ==== Proof.K.Reg1.lean ====
/-
  The second pallas_call: blocked attention over a grid of 8 × 16 points, point 16 qi + ki.

  Point (qi, ki) stages rows [1024 qi, 1024 qi + 1024) of q, rows [512 ki, 512 ki + 512) of k and of v, and the output's
  block qi, which is written back after ki = 15 only. The three buffers kept between points hold, after point n, the state
  of the walk over the key blocks of n's row of the grid up to n: reset at ki = 0, moved one step at every point. The
  invariant of the call names those contents; the output's staging buffer is left alone until ki = 15.
-/
import proofs.«416736_j36129264893953_3_alg».proof.Proof.Gen.Kernel.Launch
import proofs.«416736_j36129264893953_3_alg».proof.Proof.Gen.Kernel.Skeleton
import proofs.«416736_j36129264893953_3_alg».proof.Proof.Gen.Kernel.Points
import proofs.«416736_j36129264893953_3_alg».proof.Proof.K.Reg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: the q block is fetched at
    ki = 0 and its index does not move along the row; the k and v blocks are fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions and the output window's idle points, over the grid -/

theorem hcondFirst : ∀ t : Fin cfg1.N, condFirst (grid1.coords t) ↔ t.val % 16 = 0 :=
  (by decide +kernel : ∀ t : Fin grid1.N, condFirst (grid1.coords t) ↔ t.val % 16 = 0)
theorem hcondLast : ∀ t : Fin cfg1.N, condLast (grid1.coords t) ↔ t.val % 16 = 15 :=
  (by decide +kernel : ∀ t : Fin grid1.N, condLast (grid1.coords t) ↔ t.val % 16 = 15)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Where ki ≠ 15 the body stores nothing into the output's buffer and the pipeline does not write it back. -/
theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
/-- Where ki = 15 it stores the output block. -/
theorem live1_3 : ∀ t : Fin cfg1.N, condLast (grid1.coords t) → cfg1.idle 3 (grid1.coords t) = false := by decide +kernel

/-! ## The staging and scratch memrefs -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three buffers kept between points, as whole memrefs. -/
abbrev scM0 : Memref sig .tc .vmem S1024x1 .f32 := Memref.whole cc1_scratch0
abbrev scM1 : Memref sig .tc .vmem S1024x1 .f32 := Memref.whole cc1_scratch1
abbrev scM2 : Memref sig .tc .vmem S1024x1024 .f32 := Memref.whole cc1_scratch2

/-- The core's other scoped buffers, which this call never touches: the first call's staging buffers. -/
abbrev Rest (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three kept buffers as memrefs owned at some contents. -/
theorem PhiA1_eq (c : Dev nD) :
    (Pipeline.ΦA spec1 c : sProp 𝕄)
      = iprop(iprop(iprop((∃ d, owns (c : Thread nD τ) scM0 fullShare d) ∗ (∃ d, owns (c : Thread nD τ) scM1 fullShare d)
          ∗ (∃ d, owns (c : Thread nD τ) scM2 fullShare d)) ∗ Rest c) ∗ (∃ r, prngReg c r)) := by
  unfold Pipeline.ΦA
  rw [Pipeline.scopedRest_split_of_list spec1 c [cc1_scratch0, cc1_scratch1, cc1_scratch2] (by decide) (by decide)]
  simp only [bigSepL_cons_cons, bigSepL_singleton, scM0, scM1, scM2, owns_whole]; try rfl

/-! ## What the kept buffers hold after each point -/

/-- The state after the body at position n: one step over n's blocks, from the reset state where n opens a row of the
    grid and from what position n - 1 left elsewhere. -/
def scAt (c : Dev nD) : (n : ℕ) → n < cfg1.N → Sc F
  | 0, hn => scStep (iblk1 V c 0 ⟨0, hn⟩) (iblk1 V c 1 ⟨0, hn⟩) (iblk1 V c 2 ⟨0, hn⟩) scInit
  | n + 1, hn =>
    if (n + 1) % 16 = 0 then
      scStep (iblk1 V c 0 ⟨n + 1, hn⟩) (iblk1 V c 1 ⟨n + 1, hn⟩) (iblk1 V c 2 ⟨n + 1, hn⟩) scInit
    else
      scStep (iblk1 V c 0 ⟨n + 1, hn⟩) (iblk1 V c 1 ⟨n + 1, hn⟩) (iblk1 V c 2 ⟨n + 1, hn⟩) (scAt c n (Nat.lt_of_succ_lt hn))

/-- At a point that opens a row of the grid. -/
theorem scAt_first (c : Dev nD) (t : Fin cfg1.N) (h0 : t.val % 16 = 0) :
    scAt V c t.val t.isLt = scStep (iblk1 V c 0 t) (iblk1 V c 1 t) (iblk1 V c 2 t) scInit := by
  obtain ⟨n, hn⟩ := t
  cases n with
  | zero => rfl
  | succ n => exact if_pos h0

/-- At any other point. -/
theorem scAt_next (c : Dev nD) (t : Fin cfg1.N) (h0 : ¬t.val % 16 = 0) :
    scAt V c t.val t.isLt = scStep (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd (Nat.zero_mod _) h0
  | succ n => exact if_neg h0

/-- The call's invariant before position n: before the first point the class's; afterwards the three kept buffers at
    what the point before left, the other scoped buffers at anything, the generator register at some state. -/
def PhiS (c : Dev nD) : (n : ℕ) → n ≤ cfg1.N → sProp 𝕄
  | 0, _ => Pipeline.ΦA spec1 c
  | n + 1, hn => iprop(iprop(iprop(owns (c : Thread nD τ) scM0 fullShare (scAt V c n hn).1 ∗ owns (c : Thread nD τ) scM1 fullShare (scAt V c n hn).2.1
      ∗ owns (c : Thread nD τ) scM2 fullShare (scAt V c n hn).2.2) ∗ Rest c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare (scAt V c n hn).1 ∗ owns (c : Thread nD τ) scM1 fullShare (scAt V c n hn).2.1
      ∗ owns (c : Thread nD τ) scM2 fullShare (scAt V c n hn).2.2) ∗ Rest c) ∗ (∃ r, prngReg c r)) := rfl

theorem PhiS_pos (c : Dev nD) (n : ℕ) (h : n ≤ cfg1.N) (hz : n ≠ 0) :
    PhiS V c n h = iprop(iprop(iprop(owns (c : Thread nD τ) scM0 fullShare (scAt V c (n - 1) (by omega)).1 ∗ owns (c : Thread nD τ) scM1 fullShare (scAt V c (n - 1) (by omega)).2.1
      ∗ owns (c : Thread nD τ) scM2 fullShare (scAt V c (n - 1) (by omega)).2.2) ∗ Rest c) ∗ (∃ r, prngReg c r)) := by
  cases n with
  | zero => exact absurd rfl hz
  | succ n => rfl

/-! ## The call's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (scAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outO (scAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- Before any point the invariant yields the three kept buffers at SOME contents. -/
theorem Phi_weak (c : Dev nD) (n : ℕ) (h : n ≤ cfg1.N) :
    PhiS V c n h ⊢ iprop(iprop(iprop((∃ d, owns (c : Thread nD τ) scM0 fullShare d) ∗ (∃ d, owns (c : Thread nD τ) scM1 fullShare d)
          ∗ (∃ d, owns (c : Thread nD τ) scM2 fullShare d)) ∗ Rest c) ∗ (∃ r, prngReg c r)) := by
  by_cases hz : n = 0
  · rw [PhiS_zero V c n h hz, PhiA1_eq]
  · rw [PhiS_pos V c n h hz]
    iintro ⟨⟨⟨HS0, HS1, HS2⟩, HR⟩, Hg⟩
    isplitr [Hg]
    · isplitr [HR]
      · isplitl [HS0]; · iexists _; iexact HS0
        isplitl [HS1]; · iexists _; iexact HS1
        iexists _; iexact HS2
      · iexact HR
    · iexact Hg

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' memrefs hold their blocks. Where the point opens a row of the grid the kept
    buffers are taken at anything and left one step from the reset state; elsewhere they are taken at what the point
    before left and moved one step. The output's buffer is handed back untouched except where the point closes a row,
    where it receives the quotient. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 128 := lt_of_lt_of_eq t.isLt (show cfg1.N = 128 from N_1)
  by_cases h0 : t.val % 16 = 0
  · have h1 : ¬t.val % 16 = 15 := by omega
    rw [Dat.leavesExact_idle (dat1 V c) 3 t (idle1_3 t (fun h => h1 ((hcondLast t).mp h))) (noFlush1_3 t (fun h => h1 ((hcondLast t).mp h)))]
    rw [scAt_first V c t h0, PhiS_castSucc V c t]
    iintro ⟨HΦ, Ho, ⟨%d0, H0⟩, ⟨%d1, H1⟩, ⟨%d2, H2⟩, ⟨%d3, H3⟩⟩
    ihave HΦ' := (Phi_weak V c t.val (Nat.le_of_lt t.isLt)) $$ HΦ
    icases HΦ' with ⟨⟨⟨HS0, HS1, HS2⟩, HR⟩, Hg⟩
    iapply (sound1_A c Set.univ (grid1.coords t) _ _ _ _ _ _ _ _ _ _ _ _ _ _ ((hcondFirst t).mpr h0) (fun h => h1 ((hcondLast t).mp h))
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 HR Hg]
    · isplitr [Hg]
      · isplitr [HR]
        · isplitl [HS0]; · iexact HS0
          isplitl [HS1]; · iexact HS1
          iexact HS2
        · iexact HR
      · iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [scAt_next V c t h0, PhiS_castSucc V c t, PhiS_pos V c _ _ hz]
    by_cases h1 : t.val % 16 = 15
    · rw [show (dat1 V c).leavesExact 3 t = owns (c : Thread nD τ) (ms1_3 t) fullShare ((dat1 V c).after 3 t) from by
        unfold Dat.leavesExact; rw [live1_3 t ((hcondLast t).mpr h1)], after1_3, scAt_next V c t h0]
      iintro ⟨⟨⟨⟨HS0, HS1, HS2⟩, HR⟩, Hg⟩, Ho, ⟨%d0, H0⟩, ⟨%d1, H1⟩, ⟨%d2, H2⟩, ⟨%d3, H3⟩⟩
      iapply (sound1_C c Set.univ (grid1.coords t) _ _ _ _ _ _ _ _ _ _ _ _ _ _ (fun h => h0 ((hcondFirst t).mp h)) ((hcondLast t).mpr h1)
        (iblk1 V c 0 t) (iblk1 V c 1 t) (iblk1 V c 2 t) (scAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitr [HR]
          · isplitl [HS0]; · iexact HS0
            isplitl [HS1]; · iexact HS1
            iexact HS2
          · iexact HR
        · iexact Hg
      isplitl [Ho]; · iexact Ho
      isplitl [H0]; · iexact H0
      isplitl [H1]; · iexact H1
      isplitl [H2]; · iexact H2
      iexact H3
    · rw [Dat.leavesExact_idle (dat1 V c) 3 t (idle1_3 t (fun h => h1 ((hcondLast t).mp h))) (noFlush1_3 t (fun h => h1 ((hcondLast t).mp h)))]
      iintro ⟨⟨⟨⟨HS0, HS1, HS2⟩, HR⟩, Hg⟩, Ho, ⟨%d0, H0⟩, ⟨%d1, H1⟩, ⟨%d2, H2⟩, ⟨%d3, H3⟩⟩
      iapply (sound1_B c Set.univ (grid1.coords t) _ _ _ _ _ _ _ _ _ _ _ _ _ _ (fun h => h0 ((hcondFirst t).mp h)) (fun h => h1 ((hcondLast t).mp h))
        (iblk1 V c 0 t) (iblk1 V c 1 t) (iblk1 V c 2 t) ((dat1 V c).before 3 t d3) (scAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitr [HR]
          · isplitl [HS0]; · iexact HS0
            isplitl [HS1]; · iexact HS1
            iexact HS2
          · iexact HR
        · iexact Hg
      isplitl [Ho]; · iexact Ho
      isplitl [H0]; · iexact H0
      isplitl [H1]; · iexact H1
      isplitl [H2]; · iexact H2
      iexists _; iexact H3

/-- The body obligation of the pipeline rule, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the kept buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact Phi_weak V c _ _

end Region1

end Cert.Kernel.Hand

end
-- ==== Proof.K.Run.lean ====
/-
  The program's run: the host operations, then the two pallas_calls, each from the buffer contents the one before left.

  The contents of the TensorCore's buffers at the three boundaries are a fold from the launch memory: after the six host
  operations; after the first call, whose three output arrays hold what its write-backs leave; after the second call, whose
  output array holds what its write-backs leave. Every weakly fair execution terminates with every unscoped buffer at the
  last of these; the argument arrays are never written, so they end as launched.
-/
import proofs.«416736_j36129264893953_3_alg».proof.Proof.Gen.Kernel.Launch
import proofs.«416736_j36129264893953_3_alg».proof.Proof.Gen.Kernel.Skeleton
import proofs.«416736_j36129264893953_3_alg».proof.Proof.Gen.Kernel.Points
import proofs.«416736_j36129264893953_3_alg».proof.Proof.K.Reg0
import proofs.«416736_j36129264893953_3_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host operations (the first call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first call's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- No host operation writes a buffer that is none of their six results. -/
theorem W1_of_not_written (c : Dev nD) (b : Ref sig .tc)
    (h0 : b ≠ main_cst) (h1 : b ≠ main_v0) (h2 : b ≠ main_v1) (h3 : b ≠ main_v2) (h4 : b ≠ main_v3) (h5 : b ≠ main_v4) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_not_written m ρ c main_arg0 (by decide) (by decide) (by decide) (by decide) (by decide) (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide) (by decide) (by decide) (by decide) (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide) (by decide) (by decide) (by decide) (by decide) (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_written m ρ c main_arg3 (by decide) (by decide) (by decide) (by decide) (by decide) (by decide)
    _ = m ((c : Thread nD τ).loc main_arg3) := rfl

/-- The result array ends at what the second call's write-backs leave. -/
theorem W3_main_v6 (c : Dev nD) : W3 m ρ c (Proc.devRef .tc main_v6) = (dat1 (V2 m ρ) c).arrAt 3 cfg1.N :=
  W3_arr m ρ c 3

/-! ## The proof data family and the thread state -/

abbrev adm : (p : Fin 2) → (pcfgs (F := F) p).Adm := fun p => (cfgs p).toPCfg_adm
/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator register. -/
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The first call: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at W2, left at W3. The generator register and the scoped
    buffers enter the call's invariant as the class's and come back as the class's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result array named: it ends at what the second call's write-backs leave, the arguments as launched. -/
theorem run_value : θ_run defs (onTc (τ := τ) (main (F := F))) ⟨m, fun _ => 0, ρ⟩ (fun r => ∀ c : Dev nD,
      r.2.mem ((c.tc : Thread nD τ).loc main_v6) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans (W3_main_v6 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Hand

end
-- ==== Proof.KI.Reg0.lean ====
/-
  The first pallas_call of the program: the three projections of one block of 1024 rows of x against the three
  weight matrices, each product rounded to bf16 and stored whole into its output block.

  Everything is stated at a parameter V, the contents of the TensorCore's buffers when the call is entered.
  A grid point t stages rows [1024 t, 1024 t + 1024) of x and the whole of each weight matrix; the body leaves
  in each output's staging buffer the product of the x block with that weight, a closed function of the two
  input blocks; nothing is carried from point to point.
-/
import proofs.«416736_j36129264893953_3_alg».proof.Proof.Gen.KernelIdeal.Launch
import proofs.«416736_j36129264893953_3_alg».proof.Proof.Gen.KernelIdeal.Skeleton
import proofs.«416736_j36129264893953_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: the x block moves with
    the point and is fetched each time; a weight's block index never moves, so after the first point the buffer
    still holds it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The one rectangle every access of the body goes through: the whole [1024, 1024] buffer. -/
abbrev rW : Rect S1024x1024 := Rect.unit (s := S1024x1024) ![0, 0] S1024x1024.size inb_S1024x1024_S1024x1024_0_0

/-- What the body leaves in the q output's staging buffer: the x block times the (scaled) Wq block, rounded. -/
def outQ (x : Vec F S1024x1024 .f32) (w : Vec F S1024x1024 .bf16) : Vec F S1024x1024 .bf16 :=
  View.canon [⟨rW, k0_pay2 (View.ld x rW) (View.ld w rW)⟩]
/-- The same for k. -/
def outK (x : Vec F S1024x1024 .f32) (w : Vec F S1024x1024 .bf16) : Vec F S1024x1024 .bf16 :=
  View.canon [⟨rW, k0_pay3 (View.ld x rW) (View.ld w rW)⟩]
/-- The same for v. -/
def outV (x : Vec F S1024x1024 .f32) (w : Vec F S1024x1024 .bf16) : Vec F S1024x1024 .bf16 :=
  View.canon [⟨rW, k0_pay4 (View.ld x rW) (View.ld w rW)⟩]

/-- One store through the whole rectangle covers the buffer. -/
theorem coverW {e : EltTy} (p0 : rW.shape.Idx → Elt F e) (y : S1024x1024.Idx) :
    ∃ pc ∈ ([⟨rW, p0⟩] : List (View.Piece (Elt F) S1024x1024 e)), y ∈ pc.1.set :=
  View.cover_of_tiled [⟨rW, p0⟩] S1024x1024.size (by rfl) y

set_option maxHeartbeats 1000000 in
/-- The body on whole staging memrefs: the four inputs at their read contents, the three outputs at anything; it
    runs to the inputs as they were and each output at its product. -/
theorem sound_kernel0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1024x1024 .bf16) (harg7 : arg7.IsWhole)
    (x : Vec F S1024x1024 .f32) (wq wk wv : Vec F S1024x1024 .bf16) (K : PUnit → sProp 𝕄) :
    iprop(owns (c : Thread nD τ) arg1 fullShare x ∗ owns (c : Thread nD τ) arg2 fullShare wq
        ∗ owns (c : Thread nD τ) arg3 fullShare wk ∗ owns (c : Thread nD τ) arg4 fullShare wv
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare wq
            ∗ owns (c : Thread nD τ) arg3 fullShare wk ∗ owns (c : Thread nD τ) arg4 fullShare wv
            ∗ owns (c : Thread nD τ) arg5 fullShare (outQ x wq) ∗ owns (c : Thread nD τ) arg6 fullShare (outK x wk)
            ∗ owns (c : Thread nD τ) arg7 fullShare (outV x wv)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverW _)
  isplitl [H6]
  · iexists _; isplitr
    swap; · iexact H6
    ipureintro
    exact View.read_writes_eq_canon _ _ _ (coverW _)
  iexists _; isplitr
  swap; · iexact H7
  ipureintro
  exact View.read_writes_eq_canon _ _ _ (coverW _)

/-- The call's proof data on core c: the arrays as the call finds them; after the body at point t each input's
    buffer at its block and each output's at its product of the point's input blocks; nothing kept between
    points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline rule, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1Body.lean ====
/-
  The second pallas_call's body: one step of blocked attention.

  At a grid point (qi, ki) the body holds a block Q of 1024 query rows, a block of 512 key rows and the same 512 value
  rows, and three buffers it keeps from point to point: the running row maxima m [1024, 1], the running sums l [1024, 1]
  of the exponentials relative to them, and the running weighted sums [1024, 1024]. At ki = 0 it resets them to
  (-∞, 0, 0); at every point it moves them one step over the block; at ki = 15 it stores the weighted sums divided
  by the sums into the output block. Three cases by the two conditions; each store is of a whole buffer, so what a
  buffer holds afterwards is the last payload stored into it.
-/
import proofs.«416736_j36129264893953_3_alg».proof.Proof.Gen.KernelIdeal.Launch
import proofs.«416736_j36129264893953_3_alg».proof.Proof.Gen.KernelIdeal.Skeleton
import proofs.«416736_j36129264893953_3_alg».proof.Proof.Gen.KernelIdeal.Points
import proofs.«416736_j36129264893953_3_alg».proof.Proof.KI.Reg0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1Body

/-- The body's first condition: the point is the first of its row of the grid (ki = 0). -/
abbrev condFirst (i : grid1.Coords) : Prop := (Scalar.cmpi .ne (Scalar.extui (Scalar.cmpi .eq (BitVec.ofNat 32 (i 1).val) 0#32)) 0#32) = 1#1
/-- The body's second condition: the point is the last of its row of the grid (ki = 15). -/
abbrev condLast (i : grid1.Coords) : Prop := k1_cond2 i = 1#1

/-- The three buffers the body keeps between points: the row maxima, the sums, the weighted sums. -/
abbrev Sc (F : FTy → Type) [FloatOps F] : Type := Vec F S1024x1 .f32 × Vec F S1024x1 .f32 × Vec F S1024x1024 .f32

/-- What the reset leaves: -∞, 0, 0. -/
def scInit : Sc F := (k1_pay4, k1_pay5, k1_pay6)

/-- One step over a block: from the state s, the query block Q and the key and value blocks. -/
def scStep (Q : Vec F S1024x1024 .bf16) (Kb Vb : Vec F S512x1024 .bf16) (s : Sc F) : Sc F :=
  (k1_pay2 (k1_pay8 Q Kb s.1), k1_pay11 Q Kb s.1 s.1 s.2.1, k1_pay1 (k1_pay12 Q Kb s.1 s.1 Vb s.2.2))

/-- The output block from a state: the weighted sums divided by the sums. -/
def outO (s : Sc F) : Vec F S1024x1024 .f32 := k1_pay3 s.2.2 s.2.1

/-- The offsets of every access are zero. -/
theorem hz2 : (![0, 0] : Fin 2 → ℕ) = fun _ => 0 := by funext a; fin_cases a <;> rfl

/-- A list of stores whose last is of the whole buffer covers the buffer. -/
theorem cover_head {S : Shape} {e : EltTy} {off : Fin S.rank → Nat} (h : off = fun _ => 0)
    (inb : ∀ a, off a + S.size a ≤ S.size a) (w : S.Idx → Elt F e) (L : List (View.Piece (Elt F) S e)) (y : S.Idx) :
    ∃ pc ∈ ((⟨Rect.unit off S.size inb, w⟩ : View.Piece (Elt F) S e) :: L), y ∈ pc.1.set :=
  ⟨_, List.mem_cons_self .., View.mem_set_unit_zero h inb y⟩

/-- What a buffer reads after the body's stores: the last store is of the whole buffer, so its payload; the payload's
    own loads are of whole buffers too. -/
local macro "close_piece" : tactic => `(tactic| (
  refine (View.read_writes_eq_canon _ _ _ ?_).trans ?_
  · intro y; exact cover_head hz2 _ _ _ y
  refine (View.canon_cons_unit_zero hz2 _ _ _).trans ?_
  sl_unfold_words
  simp only [scStep, scInit, outO, View.readAt_eq_ld, View.ld_unit_zero (S := S1024x1) hz2, View.ld_unit_zero (S := S1024x1024) hz2,
    View.ld_unit_zero (S := S512x1024) hz2, View.readCov_unit_zero (S := S1024x1) _ hz2, View.readCov_unit_zero (S := S1024x1024) _ hz2,
    View.canon_cons_unit_zero (S := S1024x1) hz2, View.canon_cons_unit_zero (S := S1024x1024) hz2]))

set_option maxHeartbeats 4000000 in
theorem sound1_B (c : Dev nD) (E : Set ℕ) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S1024x1024 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1024 .f32) (harg8 : arg8.IsWhole)
    (hc0 : ¬condFirst i) (hc1 : ¬condLast i)
    (Q : Vec F S1024x1024 .bf16) (Kb Vb : Vec F S512x1024 .bf16) (xo : Vec F S1024x1024 .f32)
    (s : Sc F) (K : PUnit → sProp 𝕄) :
    iprop(owns (c : Thread nD τ) arg2 fullShare Q ∗ owns (c : Thread nD τ) arg3 fullShare Kb
        ∗ owns (c : Thread nD τ) arg4 fullShare Vb ∗ owns (c : Thread nD τ) arg5 fullShare xo
        ∗ owns (c : Thread nD τ) arg6 fullShare s.1 ∗ owns (c : Thread nD τ) arg7 fullShare s.2.1
        ∗ owns (c : Thread nD τ) arg8 fullShare s.2.2
        ∗ (iprop(owns (c : Thread nD τ) arg2 fullShare Q ∗ owns (c : Thread nD τ) arg3 fullShare Kb
            ∗ owns (c : Thread nD τ) arg4 fullShare Vb ∗ owns (c : Thread nD τ) arg5 fullShare xo
            ∗ owns (c : Thread nD τ) arg6 fullShare (scStep Q Kb Vb s).1
            ∗ owns (c : Thread nD τ) arg7 fullShare (scStep Q Kb Vb s).2.1
            ∗ owns (c : Thread nD τ) arg8 fullShare (scStep Q Kb Vb s).2.2) -∗ K ⟨⟩))
      ⊢ wp frame (wpE (defs₀ (F := F)) Variants.none c none) E
          (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5
  obtain ⟨s1, s2, s3⟩ := s
  dsimp only at hf6 hf7 hf8
  subst hf6; subst hf7; subst hf8
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    close_piece
  isplitl [H7]
  · iexists _; isplitr
    swap; · iexact H7
    ipureintro
    close_piece
  iexists _; isplitr
  swap; · iexact H8
  ipureintro
  close_piece

set_option maxHeartbeats 4000000 in
theorem sound1_A (c : Dev nD) (E : Set ℕ) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S1024x1024 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1024 .f32) (harg8 : arg8.IsWhole)
    (hc0 : condFirst i) (hc1 : ¬condLast i)
    (Q : Vec F S1024x1024 .bf16) (Kb Vb : Vec F S512x1024 .bf16) (xo : Vec F S1024x1024 .f32) (K : PUnit → sProp 𝕄) :
    iprop(owns (c : Thread nD τ) arg2 fullShare Q ∗ owns (c : Thread nD τ) arg3 fullShare Kb
        ∗ owns (c : Thread nD τ) arg4 fullShare Vb ∗ owns (c : Thread nD τ) arg5 fullShare xo
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare Q ∗ owns (c : Thread nD τ) arg3 fullShare Kb
            ∗ owns (c : Thread nD τ) arg4 fullShare Vb ∗ owns (c : Thread nD τ) arg5 fullShare xo
            ∗ owns (c : Thread nD τ) arg6 fullShare (scStep Q Kb Vb scInit).1
            ∗ owns (c : Thread nD τ) arg7 fullShare (scStep Q Kb Vb scInit).2.1
            ∗ owns (c : Thread nD τ) arg8 fullShare (scStep Q Kb Vb scInit).2.2) -∗ K ⟨⟩))
      ⊢ wp frame (wpE (defs₀ (F := F)) Variants.none c none) E
          (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    close_piece
  isplitl [H7]
  · iexists _; isplitr
    swap; · iexact H7
    ipureintro
    close_piece
  iexists _; isplitr
  swap; · iexact H8
  ipureintro
  close_piece

set_option maxHeartbeats 4000000 in
theorem sound1_C (c : Dev nD) (E : Set ℕ) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .bf16) (harg4 : arg4.IsWhole)
    (arg5 : Memref sig .tc .vmem S1024x1024 .f32) (harg5 : arg5.IsWhole)
    (arg6 : Memref sig .tc .vmem S1024x1 .f32) (harg6 : arg6.IsWhole)
    (arg7 : Memref sig .tc .vmem S1024x1 .f32) (harg7 : arg7.IsWhole)
    (arg8 : Memref sig .tc .vmem S1024x1024 .f32) (harg8 : arg8.IsWhole)
    (hc0 : ¬condFirst i) (hc1 : condLast i)
    (Q : Vec F S1024x1024 .bf16) (Kb Vb : Vec F S512x1024 .bf16)
    (s : Sc F) (K : PUnit → sProp 𝕄) :
    iprop(owns (c : Thread nD τ) arg2 fullShare Q ∗ owns (c : Thread nD τ) arg3 fullShare Kb
        ∗ owns (c : Thread nD τ) arg4 fullShare Vb ∗ (∃ d, owns (c : Thread nD τ) arg5 fullShare d)
        ∗ owns (c : Thread nD τ) arg6 fullShare s.1 ∗ owns (c : Thread nD τ) arg7 fullShare s.2.1
        ∗ owns (c : Thread nD τ) arg8 fullShare s.2.2
        ∗ (iprop(owns (c : Thread nD τ) arg2 fullShare Q ∗ owns (c : Thread nD τ) arg3 fullShare Kb
            ∗ owns (c : Thread nD τ) arg4 fullShare Vb ∗ owns (c : Thread nD τ) arg5 fullShare (outO (scStep Q Kb Vb s))
            ∗ owns (c : Thread nD τ) arg6 fullShare (scStep Q Kb Vb s).1
            ∗ owns (c : Thread nD τ) arg7 fullShare (scStep Q Kb Vb s).2.1
            ∗ owns (c : Thread nD τ) arg8 fullShare (scStep Q Kb Vb s).2.2) -∗ K ⟨⟩))
      ⊢ wp frame (wpE (defs₀ (F := F)) Variants.none c none) E
          (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf2; subst hf3; subst hf4
  obtain ⟨s1, s2, s3⟩ := s
  dsimp only at hf6 hf7 hf8
  subst hf6; subst hf7; subst hf8
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    close_piece
  isplitl [H6]
  · iexists _; isplitr
    swap; · iexact H6
    ipureintro
    close_piece
  isplitl [H7]
  · iexists _; isplitr
    swap; · iexact H7
    ipureintro
    close_piece
  iexists _; isplitr
  swap; · iexact H8
  ipureintro
  close_piece

end Region1Body

end Cert.KernelIdeal.Hand

end
-- ==== Proof.KI.Reg1.lean ====
/-
  The second pallas_call: blocked attention over a grid of 8 × 16 points, point 16 qi + ki.

  Point (qi, ki) stages rows [1024 qi, 1024 qi + 1024) of q, rows [512 ki, 512 ki + 512) of k and of v, and the output's
  block qi, which is written back after ki = 15 only. The three buffers kept between points hold, after point n, the state
  of the walk over the key blocks of n's row of the grid up to n: reset at ki = 0, moved one step at every point. The
  invariant of the call names those contents; the output's staging buffer is left alone until ki = 15.
-/
import proofs.«416736_j36129264893953_3_alg».proof.Proof.Gen.KernelIdeal.Launch
import proofs.«416736_j36129264893953_3_alg».proof.Proof.Gen.KernelIdeal.Skeleton
import proofs.«416736_j36129264893953_3_alg».proof.Proof.Gen.KernelIdeal.Points
import proofs.«416736_j36129264893953_3_alg».proof.Proof.KI.Reg1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: the q block is fetched at
    ki = 0 and its index does not move along the row; the k and v blocks are fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions and the output window's idle points, over the grid -/

theorem hcondFirst : ∀ t : Fin cfg1.N, condFirst (grid1.coords t) ↔ t.val % 16 = 0 :=
  (by decide +kernel : ∀ t : Fin grid1.N, condFirst (grid1.coords t) ↔ t.val % 16 = 0)
theorem hcondLast : ∀ t : Fin cfg1.N, condLast (grid1.coords t) ↔ t.val % 16 = 15 :=
  (by decide +kernel : ∀ t : Fin grid1.N, condLast (grid1.coords t) ↔ t.val % 16 = 15)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Where ki ≠ 15 the body stores nothing into the output's buffer and the pipeline does not write it back. -/
theorem idle1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
/-- Where ki = 15 it stores the output block. -/
theorem live1_3 : ∀ t : Fin cfg1.N, condLast (grid1.coords t) → cfg1.idle 3 (grid1.coords t) = false := by decide +kernel

/-! ## The staging and scratch memrefs -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three buffers kept between points, as whole memrefs. -/
abbrev scM0 : Memref sig .tc .vmem S1024x1 .f32 := Memref.whole cc1_scratch0
abbrev scM1 : Memref sig .tc .vmem S1024x1 .f32 := Memref.whole cc1_scratch1
abbrev scM2 : Memref sig .tc .vmem S1024x1024 .f32 := Memref.whole cc1_scratch2

/-- The core's other scoped buffers, which this call never touches: the first call's staging buffers. -/
abbrev Rest (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three kept buffers as memrefs owned at some contents. -/
theorem PhiA1_eq (c : Dev nD) :
    (Pipeline.ΦA spec1 c : sProp 𝕄)
      = iprop(iprop(iprop((∃ d, owns (c : Thread nD τ) scM0 fullShare d) ∗ (∃ d, owns (c : Thread nD τ) scM1 fullShare d)
          ∗ (∃ d, owns (c : Thread nD τ) scM2 fullShare d)) ∗ Rest c) ∗ (∃ r, prngReg c r)) := by
  unfold Pipeline.ΦA
  rw [Pipeline.scopedRest_split_of_list spec1 c [cc1_scratch0, cc1_scratch1, cc1_scratch2] (by decide) (by decide)]
  simp only [bigSepL_cons_cons, bigSepL_singleton, scM0, scM1, scM2, owns_whole]; try rfl

/-! ## What the kept buffers hold after each point -/

/-- The state after the body at position n: one step over n's blocks, from the reset state where n opens a row of the
    grid and from what position n - 1 left elsewhere. -/
def scAt (c : Dev nD) : (n : ℕ) → n < cfg1.N → Sc F
  | 0, hn => scStep (iblk1 V c 0 ⟨0, hn⟩) (iblk1 V c 1 ⟨0, hn⟩) (iblk1 V c 2 ⟨0, hn⟩) scInit
  | n + 1, hn =>
    if (n + 1) % 16 = 0 then
      scStep (iblk1 V c 0 ⟨n + 1, hn⟩) (iblk1 V c 1 ⟨n + 1, hn⟩) (iblk1 V c 2 ⟨n + 1, hn⟩) scInit
    else
      scStep (iblk1 V c 0 ⟨n + 1, hn⟩) (iblk1 V c 1 ⟨n + 1, hn⟩) (iblk1 V c 2 ⟨n + 1, hn⟩) (scAt c n (Nat.lt_of_succ_lt hn))

/-- At a point that opens a row of the grid. -/
theorem scAt_first (c : Dev nD) (t : Fin cfg1.N) (h0 : t.val % 16 = 0) :
    scAt V c t.val t.isLt = scStep (iblk1 V c 0 t) (iblk1 V c 1 t) (iblk1 V c 2 t) scInit := by
  obtain ⟨n, hn⟩ := t
  cases n with
  | zero => rfl
  | succ n => exact if_pos h0

/-- At any other point. -/
theorem scAt_next (c : Dev nD) (t : Fin cfg1.N) (h0 : ¬t.val % 16 = 0) :
    scAt V c t.val t.isLt = scStep (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd (Nat.zero_mod _) h0
  | succ n => exact if_neg h0

/-- The call's invariant before position n: before the first point the class's; afterwards the three kept buffers at
    what the point before left, the other scoped buffers at anything, the generator register at some state. -/
def PhiS (c : Dev nD) : (n : ℕ) → n ≤ cfg1.N → sProp 𝕄
  | 0, _ => Pipeline.ΦA spec1 c
  | n + 1, hn => iprop(iprop(iprop(owns (c : Thread nD τ) scM0 fullShare (scAt V c n hn).1 ∗ owns (c : Thread nD τ) scM1 fullShare (scAt V c n hn).2.1
      ∗ owns (c : Thread nD τ) scM2 fullShare (scAt V c n hn).2.2) ∗ Rest c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM0 fullShare (scAt V c n hn).1 ∗ owns (c : Thread nD τ) scM1 fullShare (scAt V c n hn).2.1
      ∗ owns (c : Thread nD τ) scM2 fullShare (scAt V c n hn).2.2) ∗ Rest c) ∗ (∃ r, prngReg c r)) := rfl

theorem PhiS_pos (c : Dev nD) (n : ℕ) (h : n ≤ cfg1.N) (hz : n ≠ 0) :
    PhiS V c n h = iprop(iprop(iprop(owns (c : Thread nD τ) scM0 fullShare (scAt V c (n - 1) (by omega)).1 ∗ owns (c : Thread nD τ) scM1 fullShare (scAt V c (n - 1) (by omega)).2.1
      ∗ owns (c : Thread nD τ) scM2 fullShare (scAt V c (n - 1) (by omega)).2.2) ∗ Rest c) ∗ (∃ r, prngReg c r)) := by
  cases n with
  | zero => exact absurd rfl hz
  | succ n => rfl

/-! ## The call's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (scAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outO (scAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- Before any point the invariant yields the three kept buffers at SOME contents. -/
theorem Phi_weak (c : Dev nD) (n : ℕ) (h : n ≤ cfg1.N) :
    PhiS V c n h ⊢ iprop(iprop(iprop((∃ d, owns (c : Thread nD τ) scM0 fullShare d) ∗ (∃ d, owns (c : Thread nD τ) scM1 fullShare d)
          ∗ (∃ d, owns (c : Thread nD τ) scM2 fullShare d)) ∗ Rest c) ∗ (∃ r, prngReg c r)) := by
  by_cases hz : n = 0
  · rw [PhiS_zero V c n h hz, PhiA1_eq]
  · rw [PhiS_pos V c n h hz]
    iintro ⟨⟨⟨HS0, HS1, HS2⟩, HR⟩, Hg⟩
    isplitr [Hg]
    · isplitr [HR]
      · isplitl [HS0]; · iexists _; iexact HS0
        isplitl [HS1]; · iexists _; iexact HS1
        iexists _; iexact HS2
      · iexact HR
    · iexact Hg

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' memrefs hold their blocks. Where the point opens a row of the grid the kept
    buffers are taken at anything and left one step from the reset state; elsewhere they are taken at what the point
    before left and moved one step. The output's buffer is handed back untouched except where the point closes a row,
    where it receives the quotient. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 128 := lt_of_lt_of_eq t.isLt (show cfg1.N = 128 from N_1)
  by_cases h0 : t.val % 16 = 0
  · have h1 : ¬t.val % 16 = 15 := by omega
    rw [Dat.leavesExact_idle (dat1 V c) 3 t (idle1_3 t (fun h => h1 ((hcondLast t).mp h))) (noFlush1_3 t (fun h => h1 ((hcondLast t).mp h)))]
    rw [scAt_first V c t h0, PhiS_castSucc V c t]
    iintro ⟨HΦ, Ho, ⟨%d0, H0⟩, ⟨%d1, H1⟩, ⟨%d2, H2⟩, ⟨%d3, H3⟩⟩
    ihave HΦ' := (Phi_weak V c t.val (Nat.le_of_lt t.isLt)) $$ HΦ
    icases HΦ' with ⟨⟨⟨HS0, HS1, HS2⟩, HR⟩, Hg⟩
    iapply (sound1_A c Set.univ (grid1.coords t) _ _ _ _ _ _ _ _ _ _ _ _ _ _ ((hcondFirst t).mpr h0) (fun h => h1 ((hcondLast t).mp h))
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [HS0 HS1 HS2 HR Hg]
    · isplitr [Hg]
      · isplitr [HR]
        · isplitl [HS0]; · iexact HS0
          isplitl [HS1]; · iexact HS1
          iexact HS2
        · iexact HR
      · iexact Hg
    isplitl [Ho]; · iexact Ho
    isplitl [H0]; · iexact H0
    isplitl [H1]; · iexact H1
    isplitl [H2]; · iexact H2
    iexists _; iexact H3
  · have hz : t.val ≠ 0 := fun e => h0 (by rw [e])
    rw [scAt_next V c t h0, PhiS_castSucc V c t, PhiS_pos V c _ _ hz]
    by_cases h1 : t.val % 16 = 15
    · rw [show (dat1 V c).leavesExact 3 t = owns (c : Thread nD τ) (ms1_3 t) fullShare ((dat1 V c).after 3 t) from by
        unfold Dat.leavesExact; rw [live1_3 t ((hcondLast t).mpr h1)], after1_3, scAt_next V c t h0]
      iintro ⟨⟨⟨⟨HS0, HS1, HS2⟩, HR⟩, Hg⟩, Ho, ⟨%d0, H0⟩, ⟨%d1, H1⟩, ⟨%d2, H2⟩, ⟨%d3, H3⟩⟩
      iapply (sound1_C c Set.univ (grid1.coords t) _ _ _ _ _ _ _ _ _ _ _ _ _ _ (fun h => h0 ((hcondFirst t).mp h)) ((hcondLast t).mpr h1)
        (iblk1 V c 0 t) (iblk1 V c 1 t) (iblk1 V c 2 t) (scAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitr [HR]
          · isplitl [HS0]; · iexact HS0
            isplitl [HS1]; · iexact HS1
            iexact HS2
          · iexact HR
        · iexact Hg
      isplitl [Ho]; · iexact Ho
      isplitl [H0]; · iexact H0
      isplitl [H1]; · iexact H1
      isplitl [H2]; · iexact H2
      iexact H3
    · rw [Dat.leavesExact_idle (dat1 V c) 3 t (idle1_3 t (fun h => h1 ((hcondLast t).mp h))) (noFlush1_3 t (fun h => h1 ((hcondLast t).mp h)))]
      iintro ⟨⟨⟨⟨HS0, HS1, HS2⟩, HR⟩, Hg⟩, Ho, ⟨%d0, H0⟩, ⟨%d1, H1⟩, ⟨%d2, H2⟩, ⟨%d3, H3⟩⟩
      iapply (sound1_B c Set.univ (grid1.coords t) _ _ _ _ _ _ _ _ _ _ _ _ _ _ (fun h => h0 ((hcondFirst t).mp h)) (fun h => h1 ((hcondLast t).mp h))
        (iblk1 V c 0 t) (iblk1 V c 1 t) (iblk1 V c 2 t) ((dat1 V c).before 3 t d3) (scAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HR Hg]
      · isplitr [Hg]
        · isplitr [HR]
          · isplitl [HS0]; · iexact HS0
            isplitl [HS1]; · iexact HS1
            iexact HS2
          · iexact HR
        · iexact Hg
      isplitl [Ho]; · iexact Ho
      isplitl [H0]; · iexact H0
      isplitl [H1]; · iexact H1
      isplitl [H2]; · iexact H2
      iexists _; iexact H3

/-- The body obligation of the pipeline rule, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives the class's back: the kept buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact Phi_weak V c _ _

end Region1

end Cert.KernelIdeal.Hand

end
-- ==== Proof.KI.Run.lean ====
/-
  The program's run: the host operations, then the two pallas_calls, each from the buffer contents the one before left.

  The contents of the TensorCore's buffers at the three boundaries are a fold from the launch memory: after the six host
  operations; after the first call, whose three output arrays hold what its write-backs leave; after the second call, whose
  output array holds what its write-backs leave. Every weakly fair execution terminates with every unscoped buffer at the
  last of these; the argument arrays are never written, so they end as launched.
-/
import proofs.«416736_j36129264893953_3_alg».proof.Proof.Gen.KernelIdeal.Launch
import proofs.«416736_j36129264893953_3_alg».proof.Proof.Gen.KernelIdeal.Skeleton
import proofs.«416736_j36129264893953_3_alg».proof.Proof.Gen.KernelIdeal.Points
import proofs.«416736_j36129264893953_3_alg».proof.Proof.KI.Reg0
import proofs.«416736_j36129264893953_3_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the host operations (the first call's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first call's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second call's exit: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- No host operation writes a buffer that is none of their six results. -/
theorem W1_of_not_written (c : Dev nD) (b : Ref sig .tc)
    (h0 : b ≠ main_cst) (h1 : b ≠ main_v0) (h2 : b ≠ main_v1) (h3 : b ≠ main_v2) (h4 : b ≠ main_v3) (h5 : b ≠ main_v4) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_not_written m ρ c main_arg0 (by decide) (by decide) (by decide) (by decide) (by decide) (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide) (by decide) (by decide) (by decide) (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide) (by decide) (by decide) (by decide) (by decide) (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_written m ρ c main_arg3 (by decide) (by decide) (by decide) (by decide) (by decide) (by decide)
    _ = m ((c : Thread nD τ).loc main_arg3) := rfl

/-- The result array ends at what the second call's write-backs leave. -/
theorem W3_main_v6 (c : Dev nD) : W3 m ρ c (Proc.devRef .tc main_v6) = (dat1 (V2 m ρ) c).arrAt 3 cfg1.N :=
  W3_arr m ρ c 3

/-! ## The proof data family and the thread state -/

abbrev adm : (p : Fin 2) → (pcfgs (F := F) p).Adm := fun p => (cfgs p).toPCfg_adm
/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator register. -/
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The first call: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at W2, left at W3. The generator register and the scoped
    buffers enter the call's invariant as the class's and come back as the class's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The run with the result array named: it ends at what the second call's write-backs leave, the arguments as launched. -/
theorem run_value : θ_run defs (onTc (τ := τ) (main (F := F))) ⟨m, fun _ => 0, ρ⟩ (fun r => ∀ c : Dev nD,
      r.2.mem ((c.tc : Thread nD τ).loc main_v6) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans (W3_main_v6 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.LibOnlineSoftmax.lean ====
/-
  The online softmax against the plain one, over the extended reals.

  A row of real logits is cut into n blocks of B columns. The online softmax walks the blocks keeping the
  running maximum m and the running sum l of the exponentials relative to it; a new block with maximum m₀ moves
  the state to (max m m₀, exp (m - max m m₀) · l + Σ_q exp (s q - max m m₀)). The state before the first block is
  (-∞, 0). After the last block the state is (M, Σ exp (s - M)) with M the maximum of the whole row, so
  m + log l is the row's log-sum-exp, and the cross-entropy term read off it equals the one read off the
  plain log-softmax over all n · B columns.
-/
import Idealize.ShloMosaic.PureOps.Ideal
import Mathlib.Data.Finset.Fold
import Mathlib.Algebra.BigOperators.Fin
import Mathlib.Logic.Equiv.Fin.Basic
import Mathlib.Analysis.SpecialFunctions.Log.Basic
import Mathlib.Analysis.SpecialFunctions.Exp

noncomputable section

namespace OnlineSoftmax

open Idealize.ShloMosaic

/-! ### Coercion facts -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the binary maximum. -/
theorem coe_max (x y : ℝ) : ((max x y : ℝ) : EReal) = max (x : EReal) (y : EReal) :=
  EReal.coe_strictMono.monotone.map_max

/-- The maximum of a nonempty finite family of reals, folded from -∞ in the extended reals, is the real
    maximum of the family: it bounds the family, is attained, and is the fold's value. -/
theorem fold_max_real {N : ℕ} (hN : 0 < N) (f : Fin N → ℝ) :
    ∃ M : ℝ, (∀ j, f j ≤ M) ∧ (∃ j, f j = M) ∧
      Finset.univ.fold max (⊥ : EReal) (fun j => ((f j : ℝ) : EReal)) = (M : EReal) := by
  obtain ⟨j0, -, hj0⟩ := Finset.exists_max_image Finset.univ f ⟨⟨0, hN⟩, Finset.mem_univ _⟩
  refine ⟨f j0, fun j => hj0 j (Finset.mem_univ j), ⟨j0, rfl⟩, le_antisymm ?_ ?_⟩
  · rw [Finset.fold_max_le]
    exact ⟨bot_le, fun x _ => EReal.coe_le_coe_iff.mpr (hj0 x (Finset.mem_univ x))⟩
  · rw [Finset.le_fold_max]
    exact Or.inr ⟨j0, Finset.mem_univ _, le_rfl⟩

/-! ### The online softmax's state -/

/-- One step of the online softmax: the state (m, l) — the running maximum and the running sum of the
    exponentials relative to it — meets a block of B columns. The new maximum m' is the larger of m and the
    block's maximum; the old sum is rescaled by exp (m - m') and the block's exponentials relative to m' are
    added. -/
def upd {B : ℕ} (row : Fin B → EReal) (ml : EReal × EReal) : EReal × EReal :=
  let m' := max ml.1 (Finset.univ.fold max (⊥ : EReal) row)
  (m', Ideal.exp (ml.1 - m') * ml.2 + ∑ q, Ideal.exp (row q - m'))

/-- The online softmax's state after the first k blocks of the row s; before the first block it is
    (-∞, 0). -/
def acc {B : ℕ} (s : ℕ → Fin B → EReal) : ℕ → EReal × EReal
  | 0 => (⊥, 0)
  | k + 1 => upd (s k) (acc s k)

/-- The new running maximum of a step. -/
theorem upd_fst {B : ℕ} (row : Fin B → EReal) (ml : EReal × EReal) :
    (upd row ml).1 = max ml.1 (Finset.univ.fold max (⊥ : EReal) row) := rfl

/-- The new running sum of a step. -/
theorem upd_snd {B : ℕ} (row : Fin B → EReal) (ml : EReal × EReal) :
    (upd row ml).2 = Ideal.exp (ml.1 - (upd row ml).1) * ml.2 + ∑ q, Ideal.exp (row q - (upd row ml).1) := rfl

/-- The state before the first block. -/
theorem acc_zero {B : ℕ} (s : ℕ → Fin B → EReal) : acc s 0 = (⊥, 0) := rfl

/-- The state after one more block. -/
theorem acc_succ {B : ℕ} (s : ℕ → Fin B → EReal) (k : ℕ) : acc s (k + 1) = upd (s k) (acc s k) := rfl

/-- The exponentials of a real block relative to a real maximum sum to a real. -/
theorem sum_exp_coe {B : ℕ} (row : Fin B → ℝ) (M : ℝ) :
    ∑ q, Ideal.exp (((row q : ℝ) : EReal) - (M : EReal)) = ((∑ q, Real.exp (row q - M) : ℝ) : EReal) := by
  rw [coe_sum]
  refine Finset.sum_congr rfl fun q _ => ?_
  rw [← EReal.coe_sub, Ideal.exp_coe]

/-- After k ≥ 1 blocks of real logits the state is real: the running maximum is the maximum M of the logits
    seen so far (it bounds them and is attained) and the running sum is Σ exp (s - M) over them. -/
theorem acc_real {B : ℕ} (hB : 0 < B) (s : ℕ → Fin B → ℝ) (k : ℕ) (hk : 0 < k) :
    ∃ M : ℝ, (∀ j, j < k → ∀ q, s j q ≤ M) ∧ (∃ j, j < k ∧ ∃ q, s j q = M) ∧
      (acc (fun j q => ((s j q : ℝ) : EReal)) k).1 = (M : EReal) ∧
      (acc (fun j q => ((s j q : ℝ) : EReal)) k).2
        = ((∑ j ∈ Finset.range k, ∑ q, Real.exp (s j q - M) : ℝ) : EReal) := by
  obtain ⟨k, rfl⟩ : ∃ k', k = k' + 1 := ⟨k - 1, by omega⟩
  clear hk
  induction k with
  | zero =>
    obtain ⟨M, hle, ⟨q0, hq0⟩, hM⟩ := fold_max_real hB (s 0)
    have h1 : (acc (fun j q => ((s j q : ℝ) : EReal)) (0 + 1)).1 = (M : EReal) := by
      rw [acc_succ, upd_fst, acc_zero, hM]; exact max_eq_right bot_le
    refine ⟨M, ?_, ⟨0, Nat.zero_lt_one, q0, hq0⟩, h1, ?_⟩
    · intro j hj q
      obtain rfl : j = 0 := by omega
      exact hle q
    · have hu : (upd (fun q => ((s 0 q : ℝ) : EReal)) (acc (fun j q => ((s j q : ℝ) : EReal)) 0)).1
          = (M : EReal) := h1
      rw [acc_succ, upd_snd, hu, acc_zero, mul_zero, zero_add, sum_exp_coe, Finset.sum_range_one]
  | succ k ih =>
    obtain ⟨M, hle, ⟨j1, hj1, q1, hq1⟩, h1, h2⟩ := ih
    obtain ⟨Mk, hlek, ⟨q0, hq0⟩, hMk⟩ := fold_max_real hB (s (k + 1))
    have h1' : (acc (fun j q => ((s j q : ℝ) : EReal)) (k + 1 + 1)).1 = ((max M Mk : ℝ) : EReal) := by
      rw [acc_succ, upd_fst, h1, hMk, coe_max]
    refine ⟨max M Mk, ?_, ?_, h1', ?_⟩
    · intro j hj q
      rcases Nat.lt_succ_iff_lt_or_eq.mp hj with h | rfl
      · exact le_trans (hle j h q) (le_max_left _ _)
      · exact le_trans (hlek q) (le_max_right _ _)
    · rcases le_total M Mk with h | h
      · exact ⟨k + 1, Nat.lt_succ_self _, q0, by rw [hq0, max_eq_right h]⟩
      · exact ⟨j1, Nat.lt_succ_of_lt hj1, q1, by rw [hq1, max_eq_left h]⟩
    · have hu : (upd (fun q => ((s (k + 1) q : ℝ) : EReal))
          (acc (fun j q => ((s j q : ℝ) : EReal)) (k + 1))).1 = ((max M Mk : ℝ) : EReal) := h1'
      rw [acc_succ, upd_snd, hu, h1, h2, sum_exp_coe, ← EReal.coe_sub, Ideal.exp_coe,
        ← EReal.coe_mul, ← EReal.coe_add, Finset.sum_range_succ _ (k + 1), Finset.mul_sum]
      congr 2
      refine Finset.sum_congr rfl fun j _ => ?_
      rw [Finset.mul_sum]
      refine Finset.sum_congr rfl fun q _ => ?_
      rw [← Real.exp_add]
      congr 1
      ring

/-! ### The blocks of a row -/

/-- Column q of block j lies in the row: j · B + q < n · B for j < n. -/
theorem blk_lt {n B j : ℕ} (h : j < n) (q : Fin B) : j * B + q.val < n * B :=
  calc j * B + q.val < j * B + B := Nat.add_lt_add_left q.isLt _
    _ = (j + 1) * B := (Nat.succ_mul j B).symm
    _ ≤ n * B := Nat.mul_le_mul_right B h

/-- A sum over the n · B columns of a row is the sum over its n blocks of the sums over each block's B
    columns, column q of block j being column j · B + q. -/
theorem sum_blocks {n B : ℕ} (g : Fin (n * B) → ℝ) :
    ∑ j : Fin n, ∑ q : Fin B, g ⟨j.val * B + q.val, blk_lt j.isLt q⟩ = ∑ c : Fin (n * B), g c := by
  rw [← Fintype.sum_prod_type'
    (f := fun (j : Fin n) (q : Fin B) => g ⟨j.val * B + q.val, blk_lt j.isLt q⟩)]
  refine Fintype.sum_equiv finProdFinEquiv _ _ fun p => ?_
  congr 1
  apply Fin.ext
  simp [finProdFinEquiv, mul_comm, add_comm]

/-- The same with the blocks counted by a natural number below n and the row's columns read through a
    function F: the block-wise double sum of F over the row is the sum of F over all n · B columns. -/
theorem sum_range_blocks {n B : ℕ} (sf : Fin (n * B) → ℝ) (F : ℝ → ℝ) :
    ∑ j ∈ Finset.range n, ∑ q : Fin B, F (if h : j < n then sf ⟨j * B + q.val, blk_lt h q⟩ else 0)
      = ∑ c : Fin (n * B), F (sf c) := by
  rw [← sum_blocks (fun c => F (sf c)), ← Fin.sum_univ_eq_sum_range
    (fun j => ∑ q : Fin B, F (if h : j < n then sf ⟨j * B + q.val, blk_lt h q⟩ else 0)) n]
  refine Finset.sum_congr rfl fun j _ => Finset.sum_congr rfl fun q _ => ?_
  rw [dif_pos j.isLt]

/-! ### The cross-entropy term of a row -/

/-- The online softmax's final state over the n blocks of a row of n · B real logits sf (column q of block j
    is column j · B + q): the running maximum is the row's maximum M — it bounds the row, is attained, and is
    the value of the row's fold from -∞ — and the running sum is Σ_c exp (sf c - M) over all the columns. -/
theorem acc_row {n B : ℕ} (hn : 0 < n) (hB : 0 < B) (sf : Fin (n * B) → ℝ) :
    ∃ M : ℝ, (∀ c, sf c ≤ M) ∧ (∃ c, sf c = M) ∧
      Finset.univ.fold max (⊥ : EReal) (fun j => ((sf j : ℝ) : EReal)) = (M : EReal) ∧
      (acc (fun j (q : Fin B) =>
        (((if h : j < n then sf ⟨j * B + q.val, blk_lt h q⟩ else 0 : ℝ)) : EReal)) n).1 = (M : EReal) ∧
      (acc (fun j (q : Fin B) =>
        (((if h : j < n then sf ⟨j * B + q.val, blk_lt h q⟩ else 0 : ℝ)) : EReal)) n).2
          = ((∑ c, Real.exp (sf c - M) : ℝ) : EReal) := by
  obtain ⟨M, hMle, ⟨jM, hjM, qM, hqM⟩, ha1, ha2⟩ :=
    acc_real hB (fun j q => if h : j < n then sf ⟨j * B + q.val, blk_lt h q⟩ else 0) n hn
  obtain ⟨M', hM'le, ⟨c0, hc0⟩, hM'⟩ := fold_max_real (Nat.mul_pos hn hB) sf
  -- the blocks' maximum is the row's maximum
  have hMM : M' = M := by
    apply le_antisymm
    · rw [← hc0]
      have hdiv : c0.val / B < n := Nat.div_lt_of_lt_mul (lt_of_lt_of_eq c0.isLt (Nat.mul_comm n B))
      have hb : (if h : c0.val / B < n then
          sf ⟨c0.val / B * B + c0.val % B, blk_lt h ⟨c0.val % B, Nat.mod_lt _ hB⟩⟩ else 0) ≤ M :=
        hMle (c0.val / B) hdiv ⟨c0.val % B, Nat.mod_lt _ hB⟩
      rw [dif_pos hdiv] at hb
      have hc : (⟨c0.val / B * B + c0.val % B, blk_lt hdiv ⟨c0.val % B, Nat.mod_lt _ hB⟩⟩ : Fin (n * B))
          = c0 := Fin.ext (Nat.div_add_mod' _ _)
      rw [hc] at hb
      exact hb
    · rw [← hqM]
      show (if h : jM < n then sf ⟨jM * B + qM.val, blk_lt h qM⟩ else 0) ≤ M'
      rw [dif_pos hjM]
      exact hM'le _
  subst hMM
  refine ⟨M', hM'le, ⟨c0, hc0⟩, hM', ha1, ?_⟩
  -- the blocks' sum of exponentials is the row's
  rw [ha2, sum_range_blocks sf (fun x => Real.exp (x - M'))]

/-- The cross-entropy term of one row of n · B real logits sf with label weight lab at column i. On the left
    the row's log-sum-exp is m + log l for the online softmax's final state (m, l) over the n blocks of B
    columns (column q of block j is column j · B + q); on the right it is the plain log-softmax: the maximum
    Mref over all columns (folded from -∞), the logits shifted by it, and a sum over the columns in which only
    column i carries the label weight. The two are equal. -/
theorem row_loss {n B : ℕ} (hn : 0 < n) (hB : 0 < B) (sf : Fin (n * B) → ℝ) (lab : ℝ) (i : Fin (n * B)) :
    let sb : ℕ → Fin B → ℝ := fun j q => if h : j < n then sf ⟨j * B + q.val, blk_lt h q⟩ else 0
    let a := acc (fun j q => ((sb j q : ℝ) : EReal)) n
    let Mref : EReal := max ⊥ (Finset.univ.fold max (⊥ : EReal) (fun j => ((sf j : ℝ) : EReal)))
    (0 - (lab : EReal)) * (((sf i : ℝ) : EReal) - (a.1 + Ideal.log a.2))
      = (0 : EReal) + ∑ j : Fin (n * B), (-(if j = i then (lab : EReal) else 0)) *
          ((((sf j : ℝ) : EReal) - Mref) - Ideal.log ((0 : EReal) +
            ∑ j' : Fin (n * B), Ideal.exp (((sf j' : ℝ) : EReal) - Mref))) := by
  intro sb a Mref
  obtain ⟨M, -, -, hM, ha1, ha2⟩ := acc_row hn hB sf
  have hSpos : 0 < ∑ c, Real.exp (sf c - M) :=
    Finset.sum_pos (fun _ _ => Real.exp_pos _) ⟨i, Finset.mem_univ _⟩
  have ha1' : a.1 = (M : EReal) := ha1
  have ha2' : a.2 = ((∑ c, Real.exp (sf c - M) : ℝ) : EReal) := ha2
  have hMref : Mref = (M : EReal) := by
    show max ⊥ (Finset.univ.fold max (⊥ : EReal) (fun j => ((sf j : ℝ) : EReal))) = (M : EReal)
    rw [hM, max_eq_right bot_le]
  have hlog : Ideal.log ((∑ c, Real.exp (sf c - M) : ℝ) : EReal)
      = ((Real.log (∑ c, Real.exp (sf c - M)) : ℝ) : EReal) := by
    rw [Ideal.log_coe, if_neg (not_le.mpr hSpos)]
  rw [ha1', ha2', hMref, zero_add, zero_add, sum_exp_coe, hlog]
  refine Eq.trans ?_ (Finset.sum_eq_single i ?_ ?_).symm
  · have hr : sf i - (M + Real.log (∑ c, Real.exp (sf c - M)))
        = sf i - M - Real.log (∑ c, Real.exp (sf c - M)) := by ring
    rw [if_pos rfl, zero_sub, ← EReal.coe_add, ← EReal.coe_sub, ← EReal.coe_sub, ← EReal.coe_sub, hr]
  · intro j _ hji
    rw [if_neg hji, neg_zero, ← EReal.coe_sub, ← EReal.coe_sub, zero_mul]
  · intro h
    exact absurd (Finset.mem_univ i) h

end OnlineSoftmax
-- ==== Proof.LibOnlineWeightedSum.lean ====
/-
  The weighted sum that rides along an online softmax, against the plain softmax-weighted sum.

  A row of real scores s and a row of real values v are walked in n blocks of B columns. Beside the online
  softmax's state (m, l) — the running maximum and the running sum of exp (s - m), see LibOnlineSoftmax — a
  running weighted sum a is kept: a new block moves it to exp (m - m') · a + Σ_q exp (s q - m') · v q, with m' the new
  maximum; before the first block it is 0. After the last block a = Σ_c exp (s c - M) · v c over all n · B columns,
  M the row's maximum, so a / l is the softmax-weighted average Σ_c v c · (exp (s c - M) / Σ_c' exp (s c' - M)):
  what a blocked attention kernel computes against a reference that materialises the softmax. Everything is
  stated over the extended reals with real scores and values (at an infinite score a difference of infinities
  is a convention, not a number).
-/
import proofs.«416736_j36129264893953_3_alg».proof.Proof.LibOnlineSoftmax

noncomputable section

namespace OnlineSoftmax

open Idealize.ShloMosaic

/-! ### The running weighted sum -/

/-- One step of the running weighted sum: the state (m, l) of the online softmax meets a block of B columns
    with scores row and values val; the old weighted sum a is rescaled by exp (m - m'), m' the new maximum,
    and the block's values weighted by the exponentials relative to m' are added. -/
def updA {B : ℕ} (row val : Fin B → EReal) (ml : EReal × EReal) (a : EReal) : EReal :=
  Ideal.exp (ml.1 - (upd row ml).1) * a + ∑ q, Ideal.exp (row q - (upd row ml).1) * val q

/-- The running weighted sum after the first k blocks; before the first block it is 0. -/
def accA {B : ℕ} (s v : ℕ → Fin B → EReal) : ℕ → EReal
  | 0 => 0
  | k + 1 => updA (s k) (v k) (acc s k) (accA s v k)

/-- Before the first block. -/
theorem accA_zero {B : ℕ} (s v : ℕ → Fin B → EReal) : accA s v 0 = 0 := rfl

/-- After one more block. -/
theorem accA_succ {B : ℕ} (s v : ℕ → Fin B → EReal) (k : ℕ) :
    accA s v (k + 1) = Ideal.exp ((acc s k).1 - (acc s (k + 1)).1) * accA s v k
      + ∑ q, Ideal.exp (s k q - (acc s (k + 1)).1) * v k q := rfl

/-- Block j of a row of n · B reals: column q of block j is column j · B + q (0 past the last block). -/
def blk {n B : ℕ} (f : Fin (n * B) → ℝ) : ℕ → Fin B → ℝ :=
  fun j q => if h : j < n then f ⟨j * B + q.val, blk_lt h q⟩ else 0

/-- The exponentials of a real block relative to a real maximum, times real values, sum to a real. -/
theorem sum_exp_mul_coe {B : ℕ} (row val : Fin B → ℝ) (M : ℝ) :
    ∑ q, Ideal.exp (((row q : ℝ) : EReal) - (M : EReal)) * ((val q : ℝ) : EReal)
      = ((∑ q, Real.exp (row q - M) * val q : ℝ) : EReal) := by
  rw [coe_sum]
  refine Finset.sum_congr rfl fun q _ => ?_
  rw [← EReal.coe_sub, Ideal.exp_coe, ← EReal.coe_mul]

/-- After k ≥ 1 blocks of real scores s and real values v the running weighted sum is
    Σ_{j < k} Σ_q exp (s j q - M) · v j q, M the running maximum after those blocks: the step multiplies the old sum
    by exp (M_old - M_new), and exp (M_old - M_new) · exp (s - M_old) = exp (s - M_new). -/
theorem accA_real {B : ℕ} (hB : 0 < B) (s v : ℕ → Fin B → ℝ) (k : ℕ) (hk : 0 < k) (M : ℝ)
    (hM : (acc (fun j q => ((s j q : ℝ) : EReal)) k).1 = (M : EReal)) :
    accA (fun j q => ((s j q : ℝ) : EReal)) (fun j q => ((v j q : ℝ) : EReal)) k
      = ((∑ j ∈ Finset.range k, ∑ q, Real.exp (s j q - M) * v j q : ℝ) : EReal) := by
  obtain ⟨k, rfl⟩ : ∃ k', k = k' + 1 := ⟨k - 1, by omega⟩
  clear hk
  induction k generalizing M with
  | zero =>
    rw [accA_succ, hM, accA_zero, mul_zero, zero_add, sum_exp_mul_coe, Finset.sum_range_one]
  | succ k ih =>
    obtain ⟨Mk, -, -, h1, -⟩ := acc_real hB s (k + 1) (Nat.succ_pos k)
    rw [accA_succ, hM, h1, ih Mk h1, sum_exp_mul_coe, ← EReal.coe_sub, Ideal.exp_coe, ← EReal.coe_mul,
      ← EReal.coe_add]
    congr 1
    rw [Finset.sum_range_succ _ (k + 1), Finset.mul_sum]
    congr 1
    refine Finset.sum_congr rfl fun j _ => ?_
    rw [Finset.mul_sum]
    refine Finset.sum_congr rfl fun q _ => ?_
    rw [← mul_assoc, ← Real.exp_add]
    congr 2
    ring

/-- A block-wise double sum of a function of a row's score and value is the sum over all the row's
    columns. -/
theorem sum_range_blocks2 {n B : ℕ} (sf vf : Fin (n * B) → ℝ) (F : ℝ → ℝ → ℝ) :
    ∑ j ∈ Finset.range n, ∑ q : Fin B, F (blk sf j q) (blk vf j q) = ∑ c : Fin (n * B), F (sf c) (vf c) := by
  rw [← sum_blocks (fun c => F (sf c) (vf c)),
    ← Fin.sum_univ_eq_sum_range (fun j => ∑ q : Fin B, F (blk sf j q) (blk vf j q)) n]
  refine Finset.sum_congr rfl fun j _ => Finset.sum_congr rfl fun q _ => ?_
  unfold blk
  rw [dif_pos j.isLt, dif_pos j.isLt]

/-- THE ROW: for a row of n · B real scores sf and real values vf, walked in n blocks of B columns, the
    final weighted sum divided by the final sum of exponentials is the plain softmax-weighted sum of the
    values over all columns, the plain softmax written as a host reference computes it (the row maximum folded
    from -∞ and once more against -∞, the exponentials divided by 0 + their sum). The law is
    (Σ_j e_j · v_j) / S = Σ_j v_j · (e_j / S), with S real and positive because every score is real. -/
theorem row_attn {n B : ℕ} (hn : 0 < n) (hB : 0 < B) (sf vf : Fin (n * B) → ℝ) :
    Ideal.div (accA (fun j q => ((blk sf j q : ℝ) : EReal)) (fun j q => ((blk vf j q : ℝ) : EReal)) n)
        (acc (fun j q => ((blk sf j q : ℝ) : EReal)) n).2
      = ∑ j : Fin (n * B), ((vf j : ℝ) : EReal) *
          Ideal.div (Ideal.exp (((sf j : ℝ) : EReal)
              - max ⊥ (Finset.univ.fold max (⊥ : EReal) (fun j => ((sf j : ℝ) : EReal)))))
            ((0 : EReal) + ∑ j' : Fin (n * B), Ideal.exp (((sf j' : ℝ) : EReal)
              - max ⊥ (Finset.univ.fold max (⊥ : EReal) (fun j => ((sf j : ℝ) : EReal))))) := by
  obtain ⟨M, -, -, hM, ha1, ha2⟩ := acc_row hn hB sf
  have ha1' : (acc (fun j q => ((blk sf j q : ℝ) : EReal)) n).1 = (M : EReal) := ha1
  have ha2' : (acc (fun j q => ((blk sf j q : ℝ) : EReal)) n).2
      = ((∑ c, Real.exp (sf c - M) : ℝ) : EReal) := ha2
  have hA := accA_real hB (blk sf) (blk vf) n hn M ha1'
  have hSpos : 0 < ∑ c, Real.exp (sf c - M) :=
    Finset.sum_pos (fun _ _ => Real.exp_pos _) ⟨⟨0, Nat.mul_pos hn hB⟩, Finset.mem_univ _⟩
  have hblocks := sum_range_blocks2 sf vf (fun x y => Real.exp (x - M) * y)
  have hL : Ideal.div (accA (fun j q => ((blk sf j q : ℝ) : EReal)) (fun j q => ((blk vf j q : ℝ) : EReal)) n)
        (acc (fun j q => ((blk sf j q : ℝ) : EReal)) n).2
      = ((∑ j, vf j * (Real.exp (sf j - M) * (1 / ∑ c, Real.exp (sf c - M))) : ℝ) : EReal) := by
    rw [hA, ha2', Ideal.div_coe hSpos.ne', ← EReal.coe_mul]
    congr 1
    rw [show (∑ j ∈ Finset.range n, ∑ q : Fin B, Real.exp (blk sf j q - M) * blk vf j q)
        = ∑ c : Fin (n * B), Real.exp (sf c - M) * vf c from hblocks, Finset.sum_mul]
    refine Finset.sum_congr rfl fun j _ => ?_
    ring
  rw [hL, coe_sum]
  refine Finset.sum_congr rfl fun j _ => ?_
  rw [hM, max_eq_right bot_le, zero_add, sum_exp_coe, ← EReal.coe_sub, Ideal.exp_coe,
    Ideal.div_coe hSpos.ne', ← EReal.coe_mul, ← EReal.coe_mul]

end OnlineSoftmax

end
-- ==== Proof.Spec.lean ====
/-
  What the program computes, over the reals: single-head attention of 8192 rows.

  x is [8192, 1024]; Wq, Wk, Wv are [1024, 1024]. A projection's entry (i, d) is the sum over k of x (i, k) · W (d, k).
  The score of row i against row j is the sum over d of q (i, d) · k (j, d), where the query projection carries the
  factor 1/32 = 1/√1024 on its weights. Row i of the result is the softmax of row i of the scores, as weights on the rows of
  the value projection. The softmax-weighted sum is written in the form a host program computes it in: the row maximum folded
  from -∞ (and met with -∞ once more), the exponentials, their sum from 0, the quotients, the weighted sum.
-/
import Idealize.ShloMosaic.PureOps.Ideal
import Idealize.ShloMosaic.PureOps.Ideal.Laws
import Idealize.ShloMosaic.Lib.ValueIdx
import proofs.«416736_j36129264893953_3_alg».proof.Proof.LibOnlineSoftmax
import proofs.«416736_j36129264893953_3_alg».proof.Proof.LibOnlineWeightedSum

noncomputable section

namespace Cert.Spec

open Idealize.ShloMosaic Idealize.ShloMosaic.ValueIdx

/-- The array of shape [A, B] whose entry (a, b) is the real f a b. -/
def arr2 {A B : ℕ} (f : Fin A → Fin B → ℝ) : (⟨2, ![A, B]⟩ : Shape).Idx → EReal :=
  fun i => ((f ⟨(i 0).val, idx2_lt0 i⟩ ⟨(i 1).val, idx2_lt1 i⟩ : ℝ) : EReal)

theorem arr2_ix2 {A B : ℕ} (f : Fin A → Fin B → ℝ) (a : Fin A) (b : Fin B) : arr2 f (ix2 a b) = ((f a b : ℝ) : EReal) := rfl

theorem arr2_apply {A B : ℕ} (f : Fin A → Fin B → ℝ) (i : (⟨2, ![A, B]⟩ : Shape).Idx) :
    arr2 f i = ((f ⟨(i 0).val, idx2_lt0 i⟩ ⟨(i 1).val, idx2_lt1 i⟩ : ℝ) : EReal) := rfl

/-- Entry (i, d) of a projection: row i of x against row d of the weights. -/
def proj (x : Fin 8192 → Fin 1024 → ℝ) (w : Fin 1024 → Fin 1024 → ℝ) (i : Fin 8192) (d : Fin 1024) : ℝ :=
  ∑ k, x i k * w d k

/-- The weights of the query projection scaled by 1/32. -/
def scaled (w : Fin 1024 → Fin 1024 → ℝ) : Fin 1024 → Fin 1024 → ℝ := fun d k => w d k * (1 / 32)

/-- The score of row i against row j from a query array q and a key array k: the sum over d of q (i, d) · k (j, d). -/
def score (q k : Fin 8192 → Fin 1024 → ℝ) (i j : Fin 8192) : ℝ := ∑ d, q i d * k j d

/-- The softmax of the scores s as weights on the values v, summed: the form a host program computes. The 8192 columns are
    counted as 16 blocks of 512. -/
def attnRow (s v : Fin (16 * 512) → ℝ) : EReal :=
  ∑ j : Fin (16 * 512), ((v j : ℝ) : EReal) *
    Ideal.div (Ideal.exp (((s j : ℝ) : EReal)
        - max ⊥ (Finset.univ.fold max (⊥ : EReal) (fun j => ((s j : ℝ) : EReal)))))
      ((0 : EReal) + ∑ j' : Fin (16 * 512), Ideal.exp (((s j' : ℝ) : EReal)
        - max ⊥ (Finset.univ.fold max (⊥ : EReal) (fun j => ((s j : ℝ) : EReal)))))

/-- Attention from a query array, a key array and a value array: entry (i, d) is the softmax of row i's scores against every
    row j, as weights on column d of the values. -/
def attn (q k v : Fin 8192 → Fin 1024 → ℝ) : (⟨2, ![8192, 1024]⟩ : Shape).Idx → EReal :=
  fun i => attnRow (fun j => score q k ⟨(i 0).val, idx2_lt0 i⟩ j) (fun j => v j ⟨(i 1).val, idx2_lt1 i⟩)

/-- The whole program on real inputs: the three projections (the query's weights scaled by 1/32), then attention. -/
def G (x : Fin 8192 → Fin 1024 → ℝ) (wq wk wv : Fin 1024 → Fin 1024 → ℝ) : (⟨2, ![8192, 1024]⟩ : Shape).Idx → EReal :=
  attn (proj x (scaled wq)) (proj x wk) (proj x wv)

/-- Scaling the query's weights by 1/32 before the projection is dividing the score by 32 after it. -/
theorem score_scaled (x : Fin 8192 → Fin 1024 → ℝ) (wq wk : Fin 1024 → Fin 1024 → ℝ) (i j : Fin 8192) :
    score (proj x (scaled wq)) (proj x wk) i j = score (proj x wq) (proj x wk) i j / 32 := by
  unfold score proj scaled
  rw [Finset.sum_div]
  refine Finset.sum_congr rfl fun d _ => ?_
  rw [show (∑ k, x i k * (wq d k * (1 / 32))) = (∑ k, x i k * wq d k) * (1 / 32) from by
    rw [Finset.sum_mul]; exact Finset.sum_congr rfl fun k _ => by ring]
  ring

end Cert.Spec

end
-- ==== Proof.KI.HostVal.lean ====
/-
  What the host operations before the first pallas_call leave: the query weights scaled by 1/32, and the three weight
  matrices changed of format (the identity on extended reals).
-/
import proofs.«416736_j36129264893953_3_alg».proof.Proof.Gen.KernelIdeal.Launch
import proofs.«416736_j36129264893953_3_alg».proof.Proof.Spec
import Idealize.ShloMosaic.Lib.StableHlo.Run

noncomputable section

namespace Cert.KernelIdeal.Hand

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ)

/-- The f32 pattern 0x3D000000 (sign 0, exponent field 122, fraction 0) denotes 2^(122 - 127) = 1/32. -/
theorem ofBits_inv32 : Ideal.ofBits .f32 0x3D000000#32 = ((1 / 32 : ℝ) : EReal) := by
  simp [Ideal.ofBits, Ideal.ieee, -EReal.coe_mul]; norm_num

/-- The scaled, reformatted query weights: entry (d, k) is wq (d, k) times the constant 1/32 spread over the whole array; the
    change of format is the identity, and the product of two reals is their real product. -/
theorem host_v2 (c : Dev nD) (wq : Fin 1024 → Fin 1024 → ℝ)
    (h : (m ((c.tc : Thread nD τ).loc main_arg1) : S1024x1024.Idx → EReal) = arr2 wq) :
    (StableHlo.after (hostOps0 (F := Ideal)) (fun b => m (c, b)) (Proc.devRef .tc main_v2) : S1024x1024.Idx → EReal) = arr2 (scaled wq) := by
  show StableHlo.after (hostOps0 (F := Ideal)) _ (Proc.devRef .tc main_v2) = _
  after_results
  have e : (m (c, Proc.devRef .tc main_arg1) : S1024x1024.Idx → EReal) = arr2 wq := h
  rw [e]
  funext i
  rw [truncf_apply, mulf_apply, arr2_apply, arr2_apply]
  show (_ : EReal) * Ideal.ofBits .f32 0x3D000000#32 = _
  rw [ofBits_inv32, ← EReal.coe_mul]
  rfl

/-- The reformatted key weights. -/
theorem host_v3 (c : Dev nD) (wk : Fin 1024 → Fin 1024 → ℝ)
    (h : (m ((c.tc : Thread nD τ).loc main_arg2) : S1024x1024.Idx → EReal) = arr2 wk) :
    (StableHlo.after (hostOps0 (F := Ideal)) (fun b => m (c, b)) (Proc.devRef .tc main_v3) : S1024x1024.Idx → EReal) = arr2 wk := by
  rw [← h]
  show StableHlo.after (hostOps0 (F := Ideal)) _ (Proc.devRef .tc main_v3) = _
  after_results
  rfl

/-- The reformatted value weights. -/
theorem host_v4 (c : Dev nD) (wv : Fin 1024 → Fin 1024 → ℝ)
    (h : (m ((c.tc : Thread nD τ).loc main_arg3) : S1024x1024.Idx → EReal) = arr2 wv) :
    (StableHlo.after (hostOps0 (F := Ideal)) (fun b => m (c, b)) (Proc.devRef .tc main_v4) : S1024x1024.Idx → EReal) = arr2 wv := by
  rw [← h]
  show StableHlo.after (hostOps0 (F := Ideal)) _ (Proc.devRef .tc main_v4) = _
  after_results
  rfl

/-- No host operation writes x. -/
theorem host_arg0 (c : Dev nD) :
    StableHlo.after (hostOps0 (F := Ideal)) (fun b => m (c, b)) (Proc.devRef .tc main_arg0) = m ((c.tc : Thread nD τ).loc main_arg0) := by
  after_results

end Cert.KernelIdeal.Hand

end
-- ==== Proof.KI.Val0.lean ====
/-
  The arrays the first pallas_call leaves, at the ideal instance: the three projections.

  A grid point t multiplies rows [1024 t, 1024 t + 1024) of x with a whole weight matrix, contracting axis 1 of both, and
  writes the product back as block t of the output array. Over the extended reals rounding is the identity, so entry (r, d) of
  the block is the sum over k of x (1024 t + r, k) * w (d, k): block t of ONE array of products. The eight blocks tile the
  8192 rows, so after the eight write-backs the output array is that array of products; from real x and w it is the real
  projection.
-/
import proofs.«416736_j36129264893953_3_alg».proof.Proof.KI.Reg0
import proofs.«416736_j36129264893953_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Val0

/-! ## The product at an entry

The matrix unit contracts axis 1 of BOTH operands: entry (r, d) of the product into the zero accumulator is the sum over k of
the left operand at (r, k) times the right operand at (d, k). -/

/-- The left operand's row coordinate is the output's row. -/
theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column coordinate is the contraction coordinate. -/
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand's row coordinate is the output's column. -/
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column coordinate is the contraction coordinate. -/
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- Entry (r, d) of the product into the zero accumulator. -/
theorem matmul_apply {φ₁ φ₂ : FTy} (a : FVec Ideal S1024x1024 φ₁) (b : FVec Ideal S1024x1024 φ₂) (r d : Fin 1024) :
    FloatOps.matmul dot_S1024x1024_S1024x1024_S1024x1024_1_1_0_0_n_n none a b (constant S1024x1024 .f32 0x00000000#32) (ix2 r d)
      = ∑ k : Fin 1024, a (ix2 r k) * b (ix2 d k) := by
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r d) ((contrEquiv1 dot_S1024x1024_S1024x1024_S1024x1024_1_1_0_0_n_n 1024 rfl rfl).symm k) = ix2 r k :=
    funext fun x => Fin.ext (by
      match x with
      | ⟨0, _⟩ => exact lhs_axis0 _ _
      | ⟨1, _⟩ => exact (lhs_axis1 _ _).trans hk)
  have er : dot_S1024x1024_S1024x1024_S1024x1024_1_1_0_0_n_n.rhsIdx (ix2 r d) ((contrEquiv1 dot_S1024x1024_S1024x1024_S1024x1024_1_1_0_0_n_n 1024 rfl rfl).symm k) = ix2 d k :=
    funext fun x => Fin.ext (by
      match x with
      | ⟨0, _⟩ => exact rhs_axis0 _ _
      | ⟨1, _⟩ => exact (rhs_axis1 _ _).trans hk)
  rw [el, er]

/-- The rounded product of the rounded x block with a weight block, at an entry: over the extended reals both roundings are
    the identity. -/
theorem round_matmul_apply (x0 : Vec Ideal S1024x1024 .f32) (w0 : Vec Ideal S1024x1024 .bf16) (r d : Fin 1024) :
    (truncf (F := Ideal) .bf16 (matmul (φ₁ := .bf16) (φ₂ := .bf16) dot_S1024x1024_S1024x1024_S1024x1024_1_1_0_0_n_n none (k0_pay1 x0) w0 (constant S1024x1024 .f32 0x00000000#32)) bitsLt_bf16_f32 : FVec Ideal S1024x1024 .bf16) (ix2 r d)
      = ∑ k : Fin 1024, (x0 (ix2 r k) : EReal) * (w0 (ix2 d k) : EReal) := by
  unfold k0_pay1
  exact matmul_apply (φ₁ := .bf16) (φ₂ := .bf16) (truncf (F := Ideal) .bf16 x0 bitsLt_bf16_f32) w0 r d

/-- The query payload at an entry: the sum over k of x (r, k) * w (d, k). -/
theorem k0_pay2_apply (x0 : Vec Ideal S1024x1024 .f32) (w0 : Vec Ideal S1024x1024 .bf16) (r d : Fin 1024) :
    k0_pay2 x0 w0 (ix2 r d) = ∑ k : Fin 1024, (x0 (ix2 r k) : EReal) * (w0 (ix2 d k) : EReal) := by
  unfold k0_pay2
  rw [shapeCast_self]
  exact round_matmul_apply x0 w0 r d

/-- The key payload at an entry: the sum over k of x (r, k) * w (d, k). -/
theorem k0_pay3_apply (x0 : Vec Ideal S1024x1024 .f32) (w0 : Vec Ideal S1024x1024 .bf16) (r d : Fin 1024) :
    k0_pay3 x0 w0 (ix2 r d) = ∑ k : Fin 1024, (x0 (ix2 r k) : EReal) * (w0 (ix2 d k) : EReal) := by
  unfold k0_pay3
  rw [shapeCast_self]
  exact round_matmul_apply x0 w0 r d

/-- The value payload at an entry: the sum over k of x (r, k) * w (d, k). -/
theorem k0_pay4_apply (x0 : Vec Ideal S1024x1024 .f32) (w0 : Vec Ideal S1024x1024 .bf16) (r d : Fin 1024) :
    k0_pay4 x0 w0 (ix2 r d) = ∑ k : Fin 1024, (x0 (ix2 r k) : EReal) * (w0 (ix2 d k) : EReal) := by
  unfold k0_pay4
  rw [shapeCast_self]
  exact round_matmul_apply x0 w0 r d

/-! ## The array of products, and the blocks as parts of it -/

theorem hz : (![0, 0] : Fin 2 → Nat) = fun _ => 0 := funext fun a => by fin_cases a <;> rfl

/-- The array of products: entry (i, d) is the sum over k of X (i, k) * W (d, k). -/
def projArr (X : S8192x1024.Idx → EReal) (W : S1024x1024.Idx → EReal) : S8192x1024.Idx → EReal :=
  fun i => ∑ k : Fin 1024, X (ix2 ⟨(i 0).val, idx2_lt0 i⟩ k) * W (ix2 ⟨(i 1).val, idx2_lt1 i⟩ k)

/-- From real operands the array of products is the real projection: the reals' sums and products are the extended reals'. -/
theorem projArr_real (x : Fin 8192 → Fin 1024 → ℝ) (w : Fin 1024 → Fin 1024 → ℝ) (X : S8192x1024.Idx → EReal)
    (W : S1024x1024.Idx → EReal) (hx : X = arr2 x) (hw : W = arr2 w) : projArr X W = arr2 (proj x w) := by
  subst hx; subst hw
  funext i
  rw [arr2_apply]
  unfold projArr proj
  rw [OnlineSoftmax.coe_sum]
  refine Finset.sum_congr rfl fun k _ => ?_
  rw [arr2_ix2, arr2_ix2, EReal.coe_mul]

/-- What a point's body leaves, at an entry of the block, is the array of products at the entry's place in the array, when
    the x block holds rows 1024 t … 1024 t + 1023 of X and the weight block is W. Stated for any payload P that is the
    product at an entry. -/
theorem block_proj (P : Vec Ideal S1024x1024 .f32 → Vec Ideal S1024x1024 .bf16 → FVec Ideal S1024x1024 .bf16)
    (hP : ∀ x0 w0 (r d : Fin 1024), P x0 w0 (ix2 r d) = ∑ k : Fin 1024, (x0 (ix2 r k) : EReal) * (w0 (ix2 d k) : EReal))
    (X : S8192x1024.Idx → EReal) (W : S1024x1024.Idx → EReal) (t : ℕ)
    (x0 : Vec Ideal S1024x1024 .f32) (w0 : Vec Ideal S1024x1024 .bf16)
    (hx : ∀ (y : S1024x1024.Idx) (i : S8192x1024.Idx), (i 0).val = 1024 * t + (y 0).val → (i 1).val = (y 1).val → x0 y = X i)
    (hw : ∀ y : S1024x1024.Idx, w0 y = W y)
    (y : S1024x1024.Idx) (i : S8192x1024.Idx) (h0 : (i 0).val = 1024 * t + (y 0).val) (h1 : (i 1).val = (y 1).val) :
    P x0 w0 y = projArr X W i := by
  obtain ⟨r, d, rfl⟩ : ∃ (r : Fin 1024) (d : Fin 1024), y = ix2 r d := ⟨y 0, y 1, eq_ix2 y⟩
  rw [hP]
  unfold projArr
  refine Finset.sum_congr rfl fun k _ => ?_
  have hd : (⟨(i 1).val, idx2_lt1 i⟩ : Fin 1024) = d := Fin.ext h1
  rw [hx (ix2 r k) (ix2 ⟨(i 0).val, idx2_lt0 i⟩ k) h0 rfl, hw, hd]

/-- The block indices over the grid: the x window and the three output windows are at block (t, 0) at point t, the weight
    windows at block (0, 0) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The point whose block of rows holds row i: i / 1024. -/
theorem point_of_row (i : S8192x1024.Idx) : ∃ t : Fin cfg0.N, t.val = (i 0).val / 1024 := by
  have hi0 : (i 0).val < 8192 := idx2_lt0 i
  have hN : cfg0.N = 8 := N_0
  exact ⟨⟨(i 0).val / 1024, by omega⟩, rfl⟩

/-- Row i lies in the block of rows number i / 1024, and every column in the one block of columns. -/
theorem row_in_block (i : S8192x1024.Idx) (idx : Fin 2 → ℕ) (h0 : idx 0 = (i 0).val / 1024) (h1 : idx 1 = 0) :
    ∀ a : Fin 2, idx a * S1024x1024.size a ≤ (i a).val ∧ (i a).val < idx a * S1024x1024.size a + S1024x1024.size a := by
  have hi0 : (i 0).val < 8192 := idx2_lt0 i
  have hi1 : (i 1).val < 1024 := idx2_lt1 i
  intro a
  match a with
  | ⟨0, _⟩ => show idx 0 * 1024 ≤ (i 0).val ∧ (i 0).val < idx 0 * 1024 + 1024; rw [h0]; omega
  | ⟨1, _⟩ => show idx 1 * 1024 ≤ (i 1).val ∧ (i 1).val < idx 1 * 1024 + 1024; rw [h1]; omega

/-- The x block at point t holds rows 1024 t … 1024 t + 1023 of x. -/
theorem iblk0_x (c : Dev nD) (t : Fin cfg0.N) (y : S1024x1024.Idx) (i : S8192x1024.Idx)
    (h0 : (i 0).val = 1024 * t.val + (y 0).val) (h1 : (i 1).val = (y 1).val) :
    (iblk0 V c 0 t : Vec Ideal S1024x1024 .f32) y = (V c main_arg0 : S8192x1024.Idx → EReal) i := by
  obtain ⟨e0, e1, -⟩ := idx_facts t
  show V c main_arg0 (((cfg0.win 0).blk t).view.emb y) = V c main_arg0 i
  refine congrArg _ ?_
  funext a; apply Fin.ext
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

/-- The query weight block at every point is the whole query weight array. -/
theorem iblk0_w1 (c : Dev nD) (t : Fin cfg0.N) (y : S1024x1024.Idx) :
    (iblk0 V c 1 t : Vec Ideal S1024x1024 .bf16) y = (V c main_v2 : S1024x1024.Idx → EReal) y := by
  obtain ⟨-, -, e0, e1, -⟩ := idx_facts t
  show V c main_v2 (((cfg0.win 1).blk t).view.emb y) = V c main_v2 y
  refine congrArg _ ?_
  funext a; apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- The key weight block at every point is the whole key weight array. -/
theorem iblk0_w2 (c : Dev nD) (t : Fin cfg0.N) (y : S1024x1024.Idx) :
    (iblk0 V c 2 t : Vec Ideal S1024x1024 .bf16) y = (V c main_v3 : S1024x1024.Idx → EReal) y := by
  obtain ⟨-, -, -, -, e0, e1, -⟩ := idx_facts t
  show V c main_v3 (((cfg0.win 2).blk t).view.emb y) = V c main_v3 y
  refine congrArg _ ?_
  funext a; apply Fin.ext
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

/-- The value weight block at every point is the whole value weight array. -/
theorem iblk0_w3 (c : Dev nD) (t : Fin cfg0.N) (y : S1024x1024.Idx) :
    (iblk0 V c 3 t : Vec Ideal S1024x1024 .bf16) y = (V c main_v4 : S1024x1024.Idx → EReal) y := by
  obtain ⟨-, -, -, -, -, -, e0, e1, -⟩ := idx_facts t
  show V c main_v4 (((cfg0.win 3).blk t).view.emb y) = V c main_v4 y
  refine congrArg _ ?_
  funext a; apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-! ### The query array (window 4) -/

/-- What point t writes back to the query array is block t of the array of products of x and the query weights. -/
theorem flushed4_eq (c : Dev nD) (t : Fin cfg0.N) :
    (dat0 V c).flushed 4 t = ((cfg0.win 4).blk t).view.read (Elt Ideal) (projArr (V c main_arg0) (V c main_v2)) := by
  show (cfg0.win 4).cut (grid0.coords t) ((dat0 V c).after 4 t) = _
  rw [after0_4]
  unfold outQ
  rw [View.canon_unit_zero hz]
  simp only [View.ld_unit_zero (S := S1024x1024) hz]
  obtain ⟨-, -, -, -, -, -, -, -, e0, e1, -⟩ := idx_facts t
  funext y
  show k0_pay2 (iblk0 V c 0 t) (iblk0 V c 1 t) y = projArr (V c main_arg0) (V c main_v2) (((cfg0.win 4).blk t).view.emb y)
  refine block_proj k0_pay2 k0_pay2_apply _ _ t.val _ _ (iblk0_x V c t) (iblk0_w1 V c t) y _ ?_ ?_
  · show win0_4.index t (0 : Fin 2) * 1024 + 1 * (y 0).val = 1024 * t.val + (y 0).val; rw [e0]; omega
  · show win0_4.index t (1 : Fin 2) * 1024 + 1 * (y 1).val = (y 1).val; rw [e1]; omega

/-- An index of the query array is in point t's block iff each coordinate is in the block's range on its axis. -/
theorem mem_blk4 (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5_0).slice (win0_4.rect t)).set ↔ _
  rw [View.set_slice_whole, Rect.mem_set_unit]
  exact Iff.rfl

/-- Every index of the query array is in the block of the point its row belongs to. -/
theorem cover4 (i : S8192x1024.Idx) : ∃ t : Fin cfg0.N, (cfg0.win 4).flush t = true ∧ i ∈ ((cfg0.win 4).blk t).view.set := by
  obtain ⟨t, ht⟩ := point_of_row i
  refine ⟨t, flush0_4 t, ?_⟩
  rw [mem_blk4]
  obtain ⟨-, -, -, -, -, -, -, -, e0, e1, -⟩ := idx_facts t
  exact row_in_block i (win0_4.index t) (e0.trans ht) e1

/-- The query array after every write-back is the array of products of x and the query weights. -/
theorem final4 (c : Dev nD) : (dat0 V c).arrAt 4 cfg0.N = projArr (V c main_arg0) (V c main_v2) :=
  (dat0 V c).arrAt_eq_of_cover 4 (projArr (V c main_arg0) (V c main_v2)) (fun t _ => flushed4_eq V c t) cover4

/-! ### The key array (window 5) -/

/-- What point t writes back to the key array is block t of the array of products of x and the key weights. -/
theorem flushed5_eq (c : Dev nD) (t : Fin cfg0.N) :
    (dat0 V c).flushed 5 t = ((cfg0.win 5).blk t).view.read (Elt Ideal) (projArr (V c main_arg0) (V c main_v3)) := by
  show (cfg0.win 5).cut (grid0.coords t) ((dat0 V c).after 5 t) = _
  rw [after0_5]
  unfold outK
  rw [View.canon_unit_zero hz]
  simp only [View.ld_unit_zero (S := S1024x1024) hz]
  obtain ⟨-, -, -, -, -, -, -, -, -, -, e0, e1, -⟩ := idx_facts t
  funext y
  show k0_pay3 (iblk0 V c 0 t) (iblk0 V c 2 t) y = projArr (V c main_arg0) (V c main_v3) (((cfg0.win 5).blk t).view.emb y)
  refine block_proj k0_pay3 k0_pay3_apply _ _ t.val _ _ (iblk0_x V c t) (iblk0_w2 V c t) y _ ?_ ?_
  · show win0_5.index t (0 : Fin 2) * 1024 + 1 * (y 0).val = 1024 * t.val + (y 0).val; rw [e0]; omega
  · show win0_5.index t (1 : Fin 2) * 1024 + 1 * (y 1).val = (y 1).val; rw [e1]; omega

/-- An index of the key array is in point t's block iff each coordinate is in the block's range on its axis. -/
theorem mem_blk5 (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v5_1).slice (win0_5.rect t)).set ↔ _
  rw [View.set_slice_whole, Rect.mem_set_unit]
  exact Iff.rfl

/-- Every index of the key array is in the block of the point its row belongs to. -/
theorem cover5 (i : S8192x1024.Idx) : ∃ t : Fin cfg0.N, (cfg0.win 5).flush t = true ∧ i ∈ ((cfg0.win 5).blk t).view.set := by
  obtain ⟨t, ht⟩ := point_of_row i
  refine ⟨t, flush0_5 t, ?_⟩
  rw [mem_blk5]
  obtain ⟨-, -, -, -, -, -, -, -, -, -, e0, e1, -⟩ := idx_facts t
  exact row_in_block i (win0_5.index t) (e0.trans ht) e1

/-- The key array after every write-back is the array of products of x and the key weights. -/
theorem final5 (c : Dev nD) : (dat0 V c).arrAt 5 cfg0.N = projArr (V c main_arg0) (V c main_v3) :=
  (dat0 V c).arrAt_eq_of_cover 5 (projArr (V c main_arg0) (V c main_v3)) (fun t _ => flushed5_eq V c t) cover5

/-! ### The value array (window 6) -/

/-- What point t writes back to the value array is block t of the array of products of x and the value weights. -/
theorem flushed6_eq (c : Dev nD) (t : Fin cfg0.N) :
    (dat0 V c).flushed 6 t = ((cfg0.win 6).blk t).view.read (Elt Ideal) (projArr (V c main_arg0) (V c main_v4)) := by
  show (cfg0.win 6).cut (grid0.coords t) ((dat0 V c).after 6 t) = _
  rw [after0_6]
  unfold outV
  rw [View.canon_unit_zero hz]
  simp only [View.ld_unit_zero (S := S1024x1024) hz]
  obtain ⟨-, -, -, -, -, -, -, -, -, -, -, -, e0, e1⟩ := idx_facts t
  funext y
  show k0_pay4 (iblk0 V c 0 t) (iblk0 V c 3 t) y = projArr (V c main_arg0) (V c main_v4) (((cfg0.win 6).blk t).view.emb y)
  refine block_proj k0_pay4 k0_pay4_apply _ _ t.val _ _ (iblk0_x V c t) (iblk0_w3 V c t) y _ ?_ ?_
  · show win0_6.index t (0 : Fin 2) * 1024 + 1 * (y 0).val = 1024 * t.val + (y 0).val; rw [e0]; omega
  · show win0_6.index t (1 : Fin 2) * 1024 + 1 * (y 1).val = (y 1).val; rw [e1]; omega

/-- An index of the value array is in point t's block iff each coordinate is in the block's range on its axis. -/
theorem mem_blk6 (t : Fin cfg0.N) (i : S8192x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v5_2).slice (win0_6.rect t)).set ↔ _
  rw [View.set_slice_whole, Rect.mem_set_unit]
  exact Iff.rfl

/-- Every index of the value array is in the block of the point its row belongs to. -/
theorem cover6 (i : S8192x1024.Idx) : ∃ t : Fin cfg0.N, (cfg0.win 6).flush t = true ∧ i ∈ ((cfg0.win 6).blk t).view.set := by
  obtain ⟨t, ht⟩ := point_of_row i
  refine ⟨t, flush0_6 t, ?_⟩
  rw [mem_blk6]
  obtain ⟨-, -, -, -, -, -, -, -, -, -, -, -, e0, e1⟩ := idx_facts t
  exact row_in_block i (win0_6.index t) (e0.trans ht) e1

/-- The value array after every write-back is the array of products of x and the value weights. -/
theorem final6 (c : Dev nD) : (dat0 V c).arrAt 6 cfg0.N = projArr (V c main_arg0) (V c main_v4) :=
  (dat0 V c).arrAt_eq_of_cover 6 (projArr (V c main_arg0) (V c main_v4)) (fun t _ => flushed6_eq V c t) cover6

end Val0

/-- The query projection: the array of window 4 after every write-back, from a real x and real (already scaled) weights. -/
theorem arr_q (c : Dev nD) (x : Fin 8192 → Fin 1024 → ℝ) (w : Fin 1024 → Fin 1024 → ℝ)
    (hx : (V c main_arg0 : S8192x1024.Idx → EReal) = arr2 x) (hw : (V c main_v2 : S1024x1024.Idx → EReal) = arr2 w) :
    ((dat0 V c).arrAt 4 cfg0.N : S8192x1024.Idx → EReal) = arr2 (proj x w) := by
  exact (Val0.final4 V c).trans (Val0.projArr_real x w _ _ hx hw)

/-- The key projection (window 5). -/
theorem arr_k (c : Dev nD) (x : Fin 8192 → Fin 1024 → ℝ) (w : Fin 1024 → Fin 1024 → ℝ)
    (hx : (V c main_arg0 : S8192x1024.Idx → EReal) = arr2 x) (hw : (V c main_v3 : S1024x1024.Idx → EReal) = arr2 w) :
    ((dat0 V c).arrAt 5 cfg0.N : S8192x1024.Idx → EReal) = arr2 (proj x w) := by
  exact (Val0.final5 V c).trans (Val0.projArr_real x w _ _ hx hw)

/-- The value projection (window 6). -/
theorem arr_v (c : Dev nD) (x : Fin 8192 → Fin 1024 → ℝ) (w : Fin 1024 → Fin 1024 → ℝ)
    (hx : (V c main_arg0 : S8192x1024.Idx → EReal) = arr2 x) (hw : (V c main_v4 : S1024x1024.Idx → EReal) = arr2 w) :
    ((dat0 V c).arrAt 6 cfg0.N : S8192x1024.Idx → EReal) = arr2 (proj x w) := by
  exact (Val0.final6 V c).trans (Val0.projArr_real x w _ _ hx hw)

end Cert.KernelIdeal.Hand

end
-- ==== Proof.KI.Val1Step.lean ====
/-
  One step of the blocked attention body at the ideal instance, row by row: the step of the online softmax and of the weighted
  sum that rides along it.
-/
import proofs.«416736_j36129264893953_3_alg».proof.Proof.KI.Reg1Body
import proofs.«416736_j36129264893953_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.ValueIdx

/-- The scores of query row r of the block Q against the 512 key rows of the block Kb. -/
def srow (Q : Vec Ideal S1024x1024 .bf16) (Kb : Vec Ideal S512x1024 .bf16) (r : Fin 1024) : Fin 512 → EReal :=
  fun j => ∑ d : Fin 1024, Q (ix2 r d) * Kb (ix2 j d)

/-- A state of the three kept buffers read row by row: row r's running maximum and sum, and its running weighted sums. -/
def IsState (s : Sc Ideal) (ml : Fin 1024 → EReal × EReal) (a : Fin 1024 → Fin 1024 → EReal) : Prop :=
  (∀ r : Fin 1024, s.1 (ix2 r (0 : Fin 1)) = (ml r).1) ∧ (∀ r : Fin 1024, s.2.1 (ix2 r (0 : Fin 1)) = (ml r).2)
    ∧ (∀ (r : Fin 1024) (d : Fin 1024), s.2.2 (ix2 r d) = a r d)

namespace Step1

/-! ## The two products at an entry

The scores contract axis 1 of BOTH operands: entry (r, j) of the product into the zero accumulator is the sum over d of the
left operand at (r, d) times the right operand at (j, d). The weighted sum contracts the left operand's axis 1 with the right
operand's axis 0: entry (r, d) is the sum over j of the left operand at (r, j) times the right operand at (j, d). -/

/-- Scores: the left operand's row coordinate is the output's row. -/
theorem sc_lhs_axis0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
/-- Scores: the left operand's column coordinate is the contraction coordinate. -/
theorem sc_lhs_axis1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
/-- Scores: the right operand's row coordinate is the output's column. -/
theorem sc_rhs_axis0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
/-- Scores: the right operand's column coordinate is the contraction coordinate. -/
theorem sc_rhs_axis1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- Entry (r, j) of the scores' product into the zero accumulator. -/
theorem scores_apply {φ₁ φ₂ : FTy} (a : FVec Ideal S1024x1024 φ₁) (b : FVec Ideal S512x1024 φ₂) (r : Fin 1024) (j : Fin 512) :
    FloatOps.matmul dot_S1024x1024_S512x1024_S1024x512_1_1_0_0_n_n none a b (constant S1024x512 .f32 0x00000000#32) (ix2 r j)
      = ∑ d : Fin 1024, a (ix2 r d) * b (ix2 j d) := by
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 r j) ((contrEquiv1 dot_S1024x1024_S512x1024_S1024x512_1_1_0_0_n_n 1024 rfl rfl).symm k) = ix2 r k :=
    funext fun x => Fin.ext (by
      match x with
      | ⟨0, _⟩ => exact sc_lhs_axis0 _ _
      | ⟨1, _⟩ => exact (sc_lhs_axis1 _ _).trans hk)
  have er : dot_S1024x1024_S512x1024_S1024x512_1_1_0_0_n_n.rhsIdx (ix2 r j) ((contrEquiv1 dot_S1024x1024_S512x1024_S1024x512_1_1_0_0_n_n 1024 rfl rfl).symm k) = ix2 j k :=
    funext fun x => Fin.ext (by
      match x with
      | ⟨0, _⟩ => exact sc_rhs_axis0 _ _
      | ⟨1, _⟩ => exact (sc_rhs_axis1 _ _).trans hk)
  rw [el, er]

/-- Weighted sum: the left operand's row coordinate is the output's row. -/
theorem ws_lhs_axis0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- Weighted sum: the left operand's column coordinate is the contraction coordinate. -/
theorem ws_lhs_axis1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- Weighted sum: the right operand's row coordinate is the contraction coordinate. -/
theorem ws_rhs_axis0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- Weighted sum: the right operand's column coordinate is the output's column. -/
theorem ws_rhs_axis1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- Entry (r, d) of the weighted sum's product into the zero accumulator. -/
theorem wsum_apply {φ₁ φ₂ : FTy} (a : FVec Ideal S1024x512 φ₁) (b : FVec Ideal S512x1024 φ₂) (r d : Fin 1024) :
    FloatOps.matmul dot_S1024x512_S512x1024_S1024x1024_1_0_0_1_n_n none a b (constant S1024x1024 .f32 0x00000000#32) (ix2 r d)
      = ∑ j : Fin 512, a (ix2 r j) * b (ix2 j d) := by
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r d) ((contrEquiv1 dot_S1024x512_S512x1024_S1024x1024_1_0_0_1_n_n 512 rfl rfl).symm k) = ix2 r k :=
    funext fun x => Fin.ext (by
      match x with
      | ⟨0, _⟩ => exact ws_lhs_axis0 _ _
      | ⟨1, _⟩ => exact (ws_lhs_axis1 _ _).trans hk)
  have er : dot_S1024x512_S512x1024_S1024x1024_1_0_0_1_n_n.rhsIdx (ix2 r d) ((contrEquiv1 dot_S1024x512_S512x1024_S1024x1024_1_0_0_1_n_n 512 rfl rfl).symm k) = ix2 k d :=
    funext fun x => Fin.ext (by
      match x with
      | ⟨0, _⟩ => exact (ws_rhs_axis0 _ _).trans hk
      | ⟨1, _⟩ => exact ws_rhs_axis1 _ _)
  rw [el, er]

/-! ## The column forms of the layout operations -/

/-- An [a] array cast to [a, 1] reads, at (i, u), the operand at i: the row-major positions agree. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane reductions of a [1024, 512] block, row by row -/

/-- The word 0xFF800000 is -∞. -/
theorem ofBits_neg_inf_f32 : Ideal.ofBits .f32 0xFF800000#32 = (⊥ : EReal) := by
  simp [Ideal.ofBits, Ideal.ieee]

/-- The source index over row r with lane j inserted is (r, j). -/
theorem lift_row (r : Fin 1024) (j : Fin 512) : reduces_S1024x512_S1024.lift (ix1 r) j = ix2 r j :=
  funext fun c => Fin.ext (by
    match c with
    | ⟨0, _⟩ => rfl
    | ⟨1, _⟩ => rfl)

/-- The maximum over the lanes from -∞, at row r: the fold of max from ⊥ over the row. -/
theorem rowmax_apply (src : FVec Ideal S1024x512 .f32) (r : Fin 1024) :
    multiReduction (F := Ideal) .maximumf [1] S1024 src 0xFF800000#32 reduces_S1024x512_S1024 (.inl rfl) rfl (ix1 r)
      = Finset.univ.fold max (⊥ : EReal) (fun j : Fin 512 => src (ix2 r j)) := by
  refine (Ideal.multiReduction_maximumf_single src 0xFF800000#32 reduces_S1024x512_S1024 (.inl rfl) rfl (ix1 r)).trans ?_
  have hb : (FloatOps.ofBits (F := Ideal) .f32 0xFF800000#32 : EReal) = ⊥ := ofBits_neg_inf_f32
  rw [hb]
  exact congrArg (Finset.univ.fold max (⊥ : EReal)) (funext fun j : Fin 512 => congrArg src (lift_row r j))

/-- The sum over the lanes from 0, at row r: the sum over the row. -/
theorem rowsum_apply (src : FVec Ideal S1024x512 .f32) (r : Fin 1024) :
    multiReduction (F := Ideal) .add [1] S1024 src 0x00000000#32 reduces_S1024x512_S1024 (.inl rfl) rfl (ix1 r)
      = ∑ j : Fin 512, src (ix2 r j) := by
  refine (Ideal.multiReduction_add_single src 0x00000000#32 reduces_S1024x512_S1024 (.inl rfl) rfl (ix1 r)).trans ?_
  exact Finset.sum_congr rfl fun j _ => congrArg src (lift_row r j)

/-! ## The step's payloads at an entry -/

/-- The scores' block at (r, j): row r's score against key row j. -/
theorem k1_pay7_apply (Q : Vec Ideal S1024x1024 .bf16) (Kb : Vec Ideal S512x1024 .bf16) (r : Fin 1024) (j : Fin 512) :
    k1_pay7 Q Kb (ix2 r j) = srow Q Kb r j := by
  unfold k1_pay7
  rw [shapeCast_self, shapeCast_self]
  exact scores_apply (φ₁ := .bf16) (φ₂ := .bf16) Q Kb r j

/-- The new maximum of row r: the larger of the old one and the maximum of the row's scores. -/
theorem k1_pay8_apply (Q : Vec Ideal S1024x1024 .bf16) (Kb : Vec Ideal S512x1024 .bf16) (m : Vec Ideal S1024x1 .f32) (r : Fin 1024) :
    k1_pay8 Q Kb m (ix2 r (0 : Fin 1)) = max (m (ix2 r (0 : Fin 1))) (Finset.univ.fold max (⊥ : EReal) (srow Q Kb r)) := by
  unfold k1_pay8
  refine (maximumf_apply _ _ _).trans ?_
  refine congrArg (max (m (ix2 r (0 : Fin 1)))) ?_
  refine (shapeCast_a_a1_apply _ _ r (0 : Fin 1)).trans ?_
  refine (rowmax_apply _ r).trans ?_
  exact congrArg (Finset.univ.fold max (⊥ : EReal)) (funext fun j : Fin 512 => k1_pay7_apply Q Kb r j)

/-- The exponential of a vector at an entry is the exponential of the entry. -/
theorem exp_apply {s : Shape} {φ : FTy} (a : FVec Ideal s φ) (i : s.Idx) : exp a i = Ideal.exp (a i) := rfl

/-- The factor that rescales row r's old sums: the exponential of the old maximum minus the new one. -/
theorem k1_pay9_apply (Q : Vec Ideal S1024x1024 .bf16) (Kb : Vec Ideal S512x1024 .bf16) (m m2 : Vec Ideal S1024x1 .f32) (r : Fin 1024) :
    k1_pay9 Q Kb m m2 (ix2 r (0 : Fin 1)) = Ideal.exp (m2 (ix2 r (0 : Fin 1)) - k1_pay8 Q Kb m (ix2 r (0 : Fin 1))) := by
  unfold k1_pay9
  exact (exp_apply _ _).trans (congrArg Ideal.exp (subf_apply _ _ _))

/-- The block's exponentials at (r, j): the exponential of the score minus row r's new maximum. -/
theorem k1_pay10_apply (Q : Vec Ideal S1024x1024 .bf16) (Kb : Vec Ideal S512x1024 .bf16) (m : Vec Ideal S1024x1 .f32) (r : Fin 1024) (j : Fin 512) :
    k1_pay10 Q Kb m (ix2 r j) = Ideal.exp (srow Q Kb r j - k1_pay8 Q Kb m (ix2 r (0 : Fin 1))) := by
  unfold k1_pay10
  refine (exp_apply _ _).trans (congrArg Ideal.exp ?_)
  refine (subf_apply _ _ _).trans ?_
  rw [k1_pay7_apply, broadcastTo_a1_ab_apply]

/-- The new sum of row r: the old sum rescaled, plus the sum of the block's exponentials over the row. -/
theorem k1_pay11_apply (Q : Vec Ideal S1024x1024 .bf16) (Kb : Vec Ideal S512x1024 .bf16) (m m2 l : Vec Ideal S1024x1 .f32) (r : Fin 1024) :
    k1_pay11 Q Kb m m2 l (ix2 r (0 : Fin 1))
      = Ideal.exp (m2 (ix2 r (0 : Fin 1)) - k1_pay8 Q Kb m (ix2 r (0 : Fin 1))) * l (ix2 r (0 : Fin 1))
        + ∑ j : Fin 512, Ideal.exp (srow Q Kb r j - k1_pay8 Q Kb m (ix2 r (0 : Fin 1))) := by
  unfold k1_pay11
  rw [shapeCast_self]
  refine (addf_apply _ _ _).trans ?_
  refine congrArg₂ (· + ·) ?_ ?_
  · exact (mulf_apply _ _ _).trans (congrArg (· * l (ix2 r (0 : Fin 1))) (k1_pay9_apply Q Kb m m2 r))
  · refine (shapeCast_a_a1_apply _ _ r (0 : Fin 1)).trans ((rowsum_apply _ r).trans ?_)
    exact Finset.sum_congr rfl fun j _ => k1_pay10_apply Q Kb m r j

/-- The new weighted sum at (r, d): the old one rescaled, plus the block's exponentials of row r against column d of the values. -/
theorem k1_pay12_apply (Q : Vec Ideal S1024x1024 .bf16) (Kb : Vec Ideal S512x1024 .bf16) (m m2 : Vec Ideal S1024x1 .f32)
    (Vb : Vec Ideal S512x1024 .bf16) (ac : Vec Ideal S1024x1024 .f32) (r d : Fin 1024) :
    k1_pay12 Q Kb m m2 Vb ac (ix2 r d)
      = Ideal.exp (m2 (ix2 r (0 : Fin 1)) - k1_pay8 Q Kb m (ix2 r (0 : Fin 1))) * ac (ix2 r d)
        + ∑ j : Fin 512, Ideal.exp (srow Q Kb r j - k1_pay8 Q Kb m (ix2 r (0 : Fin 1))) * Vb (ix2 j d) := by
  unfold k1_pay12
  rw [shapeCast_self]
  refine (addf_apply _ _ _).trans ?_
  refine congrArg₂ (· + ·) ?_ ?_
  · refine (mulf_apply _ _ _).trans (congrArg (· * ac (ix2 r d)) ?_)
    exact (broadcastTo_a1_ab_apply _ _ r d).trans (k1_pay9_apply Q Kb m m2 r)
  · refine (wsum_apply (φ₁ := .bf16) (φ₂ := .bf16) _ Vb r d).trans ?_
    refine Finset.sum_congr rfl fun j _ => ?_
    refine congrArg (· * Vb (ix2 j d)) ?_
    exact (truncf_apply (φ := .f32) (ψ := .bf16) (k1_pay10 Q Kb m) bitsLt_bf16_f32 (ix2 r j)).trans (k1_pay10_apply Q Kb m r j)

/-- The output at (r, d): the weighted sum divided by row r's sum. -/
theorem k1_pay3_apply (ac : Vec Ideal S1024x1024 .f32) (l : Vec Ideal S1024x1 .f32) (r d : Fin 1024) :
    k1_pay3 ac l (ix2 r d) = Ideal.div (ac (ix2 r d)) (l (ix2 r (0 : Fin 1))) := by
  unfold k1_pay3
  exact (divf_apply _ _ _).trans (congrArg (Ideal.div (ac (ix2 r d))) (broadcastTo_a1_ab_apply _ _ r d))

/-- The reset maxima are -∞ everywhere. -/
theorem k1_pay4_apply (i : S1024x1.Idx) : (k1_pay4 (F := Ideal)) i = (⊥ : EReal) := by
  unfold k1_pay4
  rw [shapeCast_self]
  exact ofBits_neg_inf_f32

/-- The reset sums are 0 everywhere. -/
theorem k1_pay5_apply (i : S1024x1.Idx) : (k1_pay5 (F := Ideal)) i = (0 : EReal) := by
  unfold k1_pay5
  rw [shapeCast_self]
  exact Ideal.ofBits_zero_f32

/-- The reset weighted sums are 0 everywhere. -/
theorem k1_pay6_apply (i : S1024x1024.Idx) : (k1_pay6 (F := Ideal)) i = (0 : EReal) := by
  unfold k1_pay6
  rw [shapeCast_self]
  exact Ideal.ofBits_zero_f32

end Step1

/-- The reset state: every row at (-∞, 0) and weighted sums 0. -/
theorem scInit_state : IsState (scInit (F := Ideal)) (fun _ => (⊥, 0)) (fun _ _ => 0) := by
  unfold IsState scInit
  refine ⟨fun r => ?_, fun r => ?_, fun r d => ?_⟩
  · exact Step1.k1_pay4_apply (ix2 r (0 : Fin 1))
  · exact Step1.k1_pay5_apply (ix2 r (0 : Fin 1))
  · exact Step1.k1_pay6_apply (ix2 r d)

/-- One step over a block moves every row by the online softmax's step on that row's scores, and its weighted sums by the
    step of the weighted sum against the block's value columns. -/
theorem scStep_state (Q : Vec Ideal S1024x1024 .bf16) (Kb Vb : Vec Ideal S512x1024 .bf16) (s : Sc Ideal)
    (ml : Fin 1024 → EReal × EReal) (a : Fin 1024 → Fin 1024 → EReal) (h : IsState s ml a) :
    IsState (scStep Q Kb Vb s)
      (fun r => OnlineSoftmax.upd (srow Q Kb r) (ml r))
      (fun r d => OnlineSoftmax.updA (srow Q Kb r) (fun j : Fin 512 => Vb (ix2 j d)) (ml r) (a r d)) := by
  obtain ⟨hm, hl, ha⟩ := h
  have hM : ∀ r : Fin 1024, k1_pay8 Q Kb s.1 (ix2 r (0 : Fin 1)) = (OnlineSoftmax.upd (srow Q Kb r) (ml r)).1 := fun r => by
    rw [Step1.k1_pay8_apply, hm r]; rfl
  unfold IsState scStep
  refine ⟨fun r => ?_, fun r => ?_, fun r d => ?_⟩
  · show k1_pay2 (k1_pay8 Q Kb s.1) (ix2 r (0 : Fin 1)) = _
    unfold k1_pay2
    rw [shapeCast_self]
    exact hM r
  · show k1_pay11 Q Kb s.1 s.1 s.2.1 (ix2 r (0 : Fin 1)) = _
    rw [Step1.k1_pay11_apply, hM r, hm r, hl r]
    rfl
  · show k1_pay1 (k1_pay12 Q Kb s.1 s.1 Vb s.2.2) (ix2 r d) = _
    unfold k1_pay1
    rw [shapeCast_self, Step1.k1_pay12_apply, hM r, hm r, ha r d]
    rfl

/-- The output block from a state: the weighted sums divided by the sums. -/
theorem outO_apply (s : Sc Ideal) (r d : Fin 1024) :
    outO s (ix2 r d) = Ideal.div (s.2.2 (ix2 r d)) (s.2.1 (ix2 r (0 : Fin 1))) := by
  unfold outO
  exact Step1.k1_pay3_apply s.2.2 s.2.1 r d

end Cert.KernelIdeal.Hand

end
-- ==== Proof.KI.Val1.lean ====
/-
  The array the second pallas_call leaves, at the ideal instance: attention of the three arrays it reads.
-/
import proofs.«416736_j36129264893953_3_alg».proof.Proof.KI.Reg1
import proofs.«416736_j36129264893953_3_alg».proof.Proof.KI.Val1Step
import proofs.«416736_j36129264893953_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Val1

/-- The block indices over the grid, point t = 16 qi + ki: the query window and the output window are at block (qi, 0), the
    key and value windows at block (ki, 0). -/
theorem idx_facts : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = 0 :=
  (by decide +kernel : ∀ t : Fin grid1.N, _)

/-- The query block at point t holds rows 1024 (t / 16) … of the query array. -/
theorem iblk1_q (c : Dev nD) (t : Fin cfg1.N) (y : S1024x1024.Idx) (i : S8192x1024.Idx)
    (h0 : (i 0).val = 1024 * (t.val / 16) + (y 0).val) (h1 : (i 1).val = (y 1).val) :
    (iblk1 V c 0 t : Vec Ideal S1024x1024 .bf16) y = (V c main_v5_0 : S8192x1024.Idx → EReal) i := by
  obtain ⟨e0, e1, -⟩ := idx_facts t
  show V c main_v5_0 (((cfg1.win 0).blk t).view.emb y) = V c main_v5_0 i
  refine congrArg _ ?_
  funext a; apply Fin.ext
  match a with
  | ⟨0, _⟩ => show win1_0.index t (0 : Fin 2) * 1024 + 1 * (y 0).val = (i 0).val; rw [e0, h0]; omega
  | ⟨1, _⟩ => show win1_0.index t (1 : Fin 2) * 1024 + 1 * (y 1).val = (i 1).val; rw [e1, h1]; omega

/-- The key block at point t holds rows 512 (t % 16) … of the key array. -/
theorem iblk1_k (c : Dev nD) (t : Fin cfg1.N) (y : S512x1024.Idx) (i : S8192x1024.Idx)
    (h0 : (i 0).val = (t.val % 16) * 512 + (y 0).val) (h1 : (i 1).val = (y 1).val) :
    (iblk1 V c 1 t : Vec Ideal S512x1024 .bf16) y = (V c main_v5_1 : S8192x1024.Idx → EReal) i := by
  obtain ⟨-, -, e0, e1, -⟩ := idx_facts t
  show V c main_v5_1 (((cfg1.win 1).blk t).view.emb y) = V c main_v5_1 i
  refine congrArg _ ?_
  funext a; apply Fin.ext
  match a with
  | ⟨0, _⟩ => show win1_1.index t (0 : Fin 2) * 512 + 1 * (y 0).val = (i 0).val; rw [e0, h0]; omega
  | ⟨1, _⟩ => show win1_1.index t (1 : Fin 2) * 1024 + 1 * (y 1).val = (i 1).val; rw [e1, h1]; omega

/-- The value block at point t holds rows 512 (t % 16) … of the value array. -/
theorem iblk1_v (c : Dev nD) (t : Fin cfg1.N) (y : S512x1024.Idx) (i : S8192x1024.Idx)
    (h0 : (i 0).val = (t.val % 16) * 512 + (y 0).val) (h1 : (i 1).val = (y 1).val) :
    (iblk1 V c 2 t : Vec Ideal S512x1024 .bf16) y = (V c main_v5_2 : S8192x1024.Idx → EReal) i := by
  obtain ⟨-, -, -, -, e0, e1, -⟩ := idx_facts t
  show V c main_v5_2 (((cfg1.win 2).blk t).view.emb y) = V c main_v5_2 i
  refine congrArg _ ?_
  funext a; apply Fin.ext
  match a with
  | ⟨0, _⟩ => show win1_2.index t (0 : Fin 2) * 512 + 1 * (y 0).val = (i 0).val; rw [e0, h0]; omega
  | ⟨1, _⟩ => show win1_2.index t (1 : Fin 2) * 1024 + 1 * (y 1).val = (i 1).val; rw [e1, h1]; omega

/-! ## Rows, and a row's scores and value columns in blocks -/

/-- Row r of the block of rows that point n = 16 qi + ki works on: row 1024 qi + r of the arrays. -/
def rowAt (n : ℕ) (r : Fin 1024) : Fin 8192 := ⟨1024 * ((n / 16) % 8) + r.val, by have := r.isLt; omega⟩

/-- The scores of array row i against the 8192 rows of the keys, in 16 blocks of 512. -/
def sblk (q k : Fin 8192 → Fin 1024 → ℝ) (i : Fin 8192) : ℕ → Fin 512 → EReal :=
  fun j p => ((OnlineSoftmax.blk (n := 16) (B := 512) (fun c : Fin (16 * 512) => score q k i c) j p : ℝ) : EReal)

/-- Column d of the values, in 16 blocks of 512. -/
def vblk (v : Fin 8192 → Fin 1024 → ℝ) (d : Fin 1024) : ℕ → Fin 512 → EReal :=
  fun j p => ((OnlineSoftmax.blk (n := 16) (B := 512) (fun c : Fin (16 * 512) => v c d) j p : ℝ) : EReal)

/-- The scores of row r of the query block against the key block at a point are block t % 16 of the row's real scores: the
    reals' sums and products are the extended reals'. -/
theorem srow_point (c : Dev nD) (q k : Fin 8192 → Fin 1024 → ℝ)
    (hq : (V c main_v5_0 : S8192x1024.Idx → EReal) = arr2 q) (hk : (V c main_v5_1 : S8192x1024.Idx → EReal) = arr2 k)
    (t : Fin cfg1.N) (r : Fin 1024) :
    srow (iblk1 V c 0 t) (iblk1 V c 1 t) r = sblk q k (rowAt t.val r) (t.val % 16) := by
  funext j
  have hN : cfg1.N = 128 := N_1
  have ht : t.val < 128 := by have := t.isLt; omega
  have hki : t.val % 16 < 16 := Nat.mod_lt _ (by norm_num)
  have hj := j.isLt
  unfold srow sblk OnlineSoftmax.blk
  rw [dif_pos hki]
  unfold score
  rw [OnlineSoftmax.coe_sum]
  refine Finset.sum_congr rfl fun d _ => ?_
  rw [iblk1_q V c t (ix2 r d) (ix2 (rowAt t.val r) d) (by show 1024 * ((t.val / 16) % 8) + r.val = 1024 * (t.val / 16) + r.val; omega) rfl,
    iblk1_k V c t (ix2 j d) (ix2 (⟨t.val % 16 * 512 + j.val, by omega⟩ : Fin 8192) d) rfl rfl, hq, hk, arr2_ix2, arr2_ix2, EReal.coe_mul]

/-- Column d of the value block at a point is block t % 16 of column d of the real values. -/
theorem vcol_point (c : Dev nD) (v : Fin 8192 → Fin 1024 → ℝ)
    (hv : (V c main_v5_2 : S8192x1024.Idx → EReal) = arr2 v) (t : Fin cfg1.N) (d : Fin 1024) :
    (fun j : Fin 512 => (iblk1 V c 2 t : Vec Ideal S512x1024 .bf16) (ix2 j d)) = vblk v d (t.val % 16) := by
  funext j
  have hki : t.val % 16 < 16 := Nat.mod_lt _ (by norm_num)
  have hj := j.isLt
  unfold vblk OnlineSoftmax.blk
  rw [dif_pos hki, iblk1_v V c t (ix2 j d) (ix2 (⟨t.val % 16 * 512 + j.val, by omega⟩ : Fin 8192) d) rfl rfl, hv, arr2_ix2]

/-- A state read row by row is a state read by equal rows. -/
theorem isState_congr {s : Sc Ideal} {ml ml' : Fin 1024 → EReal × EReal} {a a' : Fin 1024 → Fin 1024 → EReal}
    (h : IsState s ml a) (hml : ∀ r, ml r = ml' r) (ha : ∀ r d, a r d = a' r d) : IsState s ml' a' := by
  obtain ⟨h1, h2, h3⟩ := h
  exact ⟨fun r => (h1 r).trans (congrArg Prod.fst (hml r)), fun r => (h2 r).trans (congrArg Prod.snd (hml r)),
    fun r d => (h3 r d).trans (ha r d)⟩

/-- One point's step on a state: every row moves by the online softmax's step on block n % 16 of its real scores, its
    weighted sums by the step against block n % 16 of the value columns. -/
theorem step_point (c : Dev nD) (q k v : Fin 8192 → Fin 1024 → ℝ)
    (hq : (V c main_v5_0 : S8192x1024.Idx → EReal) = arr2 q) (hk : (V c main_v5_1 : S8192x1024.Idx → EReal) = arr2 k)
    (hv : (V c main_v5_2 : S8192x1024.Idx → EReal) = arr2 v) (n : ℕ) (hn : n < cfg1.N) (s : Sc Ideal)
    (ml : Fin 1024 → EReal × EReal) (a : Fin 1024 → Fin 1024 → EReal) (h : IsState s ml a) :
    IsState (scStep (iblk1 V c 0 ⟨n, hn⟩) (iblk1 V c 1 ⟨n, hn⟩) (iblk1 V c 2 ⟨n, hn⟩) s)
      (fun r => OnlineSoftmax.upd (sblk q k (rowAt n r) (n % 16)) (ml r))
      (fun r d => OnlineSoftmax.updA (sblk q k (rowAt n r) (n % 16)) (vblk v d (n % 16)) (ml r) (a r d)) := by
  refine isState_congr (scStep_state (iblk1 V c 0 ⟨n, hn⟩) (iblk1 V c 1 ⟨n, hn⟩) (iblk1 V c 2 ⟨n, hn⟩) s ml a h) (fun r => ?_) (fun r d => ?_)
  · rw [srow_point V c q k hq hk ⟨n, hn⟩ r]
  · rw [srow_point V c q k hq hk ⟨n, hn⟩ r, vcol_point V c v hv ⟨n, hn⟩ d]

/-! ## The kept buffers after each point -/

/-- Row r's running maximum and sum after point n: the online softmax over blocks 0 … n % 16 of the row's scores. -/
def mlAt (q k : Fin 8192 → Fin 1024 → ℝ) (n : ℕ) (r : Fin 1024) : EReal × EReal :=
  OnlineSoftmax.acc (sblk q k (rowAt n r)) (n % 16 + 1)

/-- Row r's running weighted sums after point n. -/
def aAt (q k v : Fin 8192 → Fin 1024 → ℝ) (n : ℕ) (r d : Fin 1024) : EReal :=
  OnlineSoftmax.accA (sblk q k (rowAt n r)) (vblk v d) (n % 16 + 1)

/-- The kept buffers at equal positions. -/
theorem scAt_congr (c : Dev nD) {n m : ℕ} (h : n = m) (hn : n < cfg1.N) (hm : m < cfg1.N) : scAt V c n hn = scAt V c m hm := by
  subst h; rfl

/-- After point n = 16 qi + ki the kept buffers hold, row by row, the online softmax and the weighted sums over blocks
    0 … ki: by induction on the point, a point that opens a row of the grid stepping from the reset state. -/
theorem state_at (c : Dev nD) (q k v : Fin 8192 → Fin 1024 → ℝ)
    (hq : (V c main_v5_0 : S8192x1024.Idx → EReal) = arr2 q) (hk : (V c main_v5_1 : S8192x1024.Idx → EReal) = arr2 k)
    (hv : (V c main_v5_2 : S8192x1024.Idx → EReal) = arr2 v) :
    ∀ (n : ℕ) (hn : n < cfg1.N), IsState (scAt V c n hn) (mlAt q k n) (aAt q k v n) := by
  intro n
  induction n with
  | zero =>
    intro hn
    have e : scAt V c 0 hn = scStep (iblk1 V c 0 ⟨0, hn⟩) (iblk1 V c 1 ⟨0, hn⟩) (iblk1 V c 2 ⟨0, hn⟩) scInit :=
      scAt_first V c ⟨0, hn⟩ rfl
    rw [e]
    refine isState_congr (step_point V c q k v hq hk hv 0 hn scInit _ _ scInit_state) (fun r => ?_) (fun r d => ?_)
    · rfl
    · rfl
  | succ m ih =>
    intro hn
    by_cases h0 : (m + 1) % 16 = 0
    · have e : scAt V c (m + 1) hn = scStep (iblk1 V c 0 ⟨m + 1, hn⟩) (iblk1 V c 1 ⟨m + 1, hn⟩) (iblk1 V c 2 ⟨m + 1, hn⟩) scInit :=
        scAt_first V c ⟨m + 1, hn⟩ h0
      rw [e]
      refine isState_congr (step_point V c q k v hq hk hv (m + 1) hn scInit _ _ scInit_state) (fun r => ?_) (fun r d => ?_)
      · show _ = OnlineSoftmax.acc (sblk q k (rowAt (m + 1) r)) ((m + 1) % 16 + 1)
        rw [OnlineSoftmax.acc_succ, h0]; rfl
      · show _ = OnlineSoftmax.accA (sblk q k (rowAt (m + 1) r)) (vblk v d) ((m + 1) % 16 + 1)
        rw [h0]; rfl
    · have hm : m < cfg1.N := Nat.lt_of_succ_lt hn
      have e : scAt V c (m + 1) hn = scStep (iblk1 V c 0 ⟨m + 1, hn⟩) (iblk1 V c 1 ⟨m + 1, hn⟩) (iblk1 V c 2 ⟨m + 1, hn⟩)
          (scAt V c m hm) :=
        (scAt_next V c ⟨m + 1, hn⟩ h0).trans (by rw [scAt_congr V c (show (⟨m + 1, hn⟩ : Fin cfg1.N).val - 1 = m from rfl) _ hm])
      rw [e]
      have hrow : ∀ r, rowAt m r = rowAt (m + 1) r := fun r => Fin.ext (by
        show 1024 * ((m / 16) % 8) + r.val = 1024 * (((m + 1) / 16) % 8) + r.val; omega)
      have hmod : m % 16 + 1 = (m + 1) % 16 := by omega
      have e2 : ∀ r, mlAt q k m r = OnlineSoftmax.acc (sblk q k (rowAt (m + 1) r)) ((m + 1) % 16) := fun r => by
        unfold mlAt; rw [hrow, hmod]
      have e3 : ∀ r d, aAt q k v m r d = OnlineSoftmax.accA (sblk q k (rowAt (m + 1) r)) (vblk v d) ((m + 1) % 16) := fun r d => by
        unfold aAt; rw [hrow, hmod]
      refine isState_congr (step_point V c q k v hq hk hv (m + 1) hn _ _ _ (ih hm)) (fun r => ?_) (fun r d => ?_)
      · show _ = OnlineSoftmax.upd (sblk q k (rowAt (m + 1) r) ((m + 1) % 16)) (OnlineSoftmax.acc (sblk q k (rowAt (m + 1) r)) ((m + 1) % 16))
        rw [e2]
      · show _ = OnlineSoftmax.updA (sblk q k (rowAt (m + 1) r) ((m + 1) % 16)) (vblk v d ((m + 1) % 16))
            (OnlineSoftmax.acc (sblk q k (rowAt (m + 1) r)) ((m + 1) % 16)) (OnlineSoftmax.accA (sblk q k (rowAt (m + 1) r)) (vblk v d) ((m + 1) % 16))
        rw [e2, e3]

/-! ## The block written back, and the array -/

/-- At a point that closes a row of the grid the output block's entry (r, d) is the softmax of row 1024 qi + r's scores as
    weights on column d of the values: sixteen blocks of the online softmax and its weighted sum, divided. -/
theorem out_entry (c : Dev nD) (q k v : Fin 8192 → Fin 1024 → ℝ)
    (hq : (V c main_v5_0 : S8192x1024.Idx → EReal) = arr2 q) (hk : (V c main_v5_1 : S8192x1024.Idx → EReal) = arr2 k)
    (hv : (V c main_v5_2 : S8192x1024.Idx → EReal) = arr2 v) (t : Fin cfg1.N) (h15 : t.val % 16 = 15) (r d : Fin 1024) :
    outO (scAt V c t.val t.isLt) (ix2 r d) = attnRow (fun j => score q k (rowAt t.val r) j) (fun j => v j d) := by
  obtain ⟨-, h2, h3⟩ := state_at V c q k v hq hk hv t.val t.isLt
  rw [outO_apply, h3, h2]
  unfold aAt mlAt attnRow
  rw [h15]
  exact OnlineSoftmax.row_attn (n := 16) (B := 512) (by norm_num) (by norm_num)
    (fun c : Fin (16 * 512) => score q k (rowAt t.val r) c) (fun c : Fin (16 * 512) => v c d)

/-- What a point that closes a row of the grid writes back is its block of the attention array. -/
theorem flushed3_eq (c : Dev nD) (q k v : Fin 8192 → Fin 1024 → ℝ)
    (hq : (V c main_v5_0 : S8192x1024.Idx → EReal) = arr2 q) (hk : (V c main_v5_1 : S8192x1024.Idx → EReal) = arr2 k)
    (hv : (V c main_v5_2 : S8192x1024.Idx → EReal) = arr2 v) (t : Fin cfg1.N) (hf : (cfg1.win 3).flush t = true) :
    (dat1 V c).flushed 3 t = ((cfg1.win 3).blk t).view.read (Elt Ideal) (attn q k v) := by
  have h15 : t.val % 16 = 15 := (flush1_3 t).mp hf
  have hN : cfg1.N = 128 := N_1
  have ht : t.val < 128 := by have := t.isLt; omega
  show (cfg1.win 3).cut (grid1.coords t) ((dat1 V c).after 3 t) = _
  rw [after1_3]
  obtain ⟨-, -, -, -, -, -, e0, e1⟩ := idx_facts t
  funext y
  show outO (scAt V c t.val t.isLt) y = attn q k v (((cfg1.win 3).blk t).view.emb y)
  obtain ⟨r, d, rfl⟩ : ∃ (r : Fin 1024) (d : Fin 1024), y = ix2 r d := ⟨y 0, y 1, eq_ix2 y⟩
  rw [out_entry V c q k v hq hk hv t h15 r d]
  unfold attn
  have hr : (⟨((((cfg1.win 3).blk t).view.emb (ix2 r d)) 0).val, idx2_lt0 _⟩ : Fin 8192) = rowAt t.val r :=
    Fin.ext (by show win1_3.index t (0 : Fin 2) * 1024 + 1 * r.val = 1024 * ((t.val / 16) % 8) + r.val; rw [e0]; omega)
  have hd : (⟨((((cfg1.win 3).blk t).view.emb (ix2 r d)) 1).val, idx2_lt1 _⟩ : Fin 1024) = d :=
    Fin.ext (by show win1_3.index t (1 : Fin 2) * 1024 + 1 * d.val = d.val; rw [e1]; omega)
  rw [hr, hd]

/-- An index of the result array is in point t's block iff each coordinate is in the block's range on its axis. -/
theorem mem_blk3 (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v6).slice (win1_3.rect t)).set ↔ _
  rw [View.set_slice_whole, Rect.mem_set_unit]
  exact Iff.rfl

/-- Every index of the result array is in the block of the point that closes its row of blocks: row i is written back at
    point 16 (i / 1024) + 15. -/
theorem cover3 (i : S8192x1024.Idx) : ∃ t : Fin cfg1.N, (cfg1.win 3).flush t = true ∧ i ∈ ((cfg1.win 3).blk t).view.set := by
  have hi0 : (i 0).val < 8192 := idx2_lt0 i
  have hi1 : (i 1).val < 1024 := idx2_lt1 i
  have hN : cfg1.N = 128 := N_1
  let t : Fin cfg1.N := ⟨16 * ((i 0).val / 1024) + 15, by omega⟩
  have htv : t.val = 16 * ((i 0).val / 1024) + 15 := rfl
  refine ⟨t, (flush1_3 t).mpr (by rw [htv]; omega), ?_⟩
  rw [mem_blk3]
  obtain ⟨-, -, -, -, -, -, e0, e1⟩ := idx_facts t
  intro a
  match a with
  | ⟨0, _⟩ => show win1_3.index t (0 : Fin 2) * 1024 ≤ (i 0).val ∧ (i 0).val < win1_3.index t (0 : Fin 2) * 1024 + 1024; rw [e0, htv]; omega
  | ⟨1, _⟩ => show win1_3.index t (1 : Fin 2) * 1024 ≤ (i 1).val ∧ (i 1).val < win1_3.index t (1 : Fin 2) * 1024 + 1024; rw [e1]; omega

end Val1

/-- The result array after every write-back of the second call, from real query, key and value arrays. -/
theorem arr_out (c : Dev nD) (q k v : Fin 8192 → Fin 1024 → ℝ)
    (hq : (V c main_v5_0 : S8192x1024.Idx → EReal) = arr2 q)
    (hk : (V c main_v5_1 : S8192x1024.Idx → EReal) = arr2 k)
    (hv : (V c main_v5_2 : S8192x1024.Idx → EReal) = arr2 v) :
    ((dat1 V c).arrAt 3 cfg1.N : S8192x1024.Idx → EReal) = attn q k v :=
  (dat1 V c).arrAt_eq_of_cover 3 (attn q k v) (fun t hf => Val1.flushed3_eq V c q k v hq hk hv t hf) Val1.cover3

end Cert.KernelIdeal.Hand

end
-- ==== Proof.Finite.lean ====
/-
  Finite inputs are arrays of reals.

  The precondition says that for each of the four argument arrays the conjunction over all entries of |a| < +∞ holds. An
  extended real whose absolute value is strictly below +∞ is neither -∞ nor +∞, so it is a real; choosing that real at
  every index gives a real matrix whose array is the argument.
-/
import proofs.«416736_j36129264893953_3_alg».proof.Defs
import proofs.«416736_j36129264893953_3_alg».proof.Proof.Gen.Pre_finite_inputs
import proofs.«416736_j36129264893953_3_alg».proof.Proof.Spec
import Idealize.ShloMosaic.Lib.ReduceAll

noncomputable section

namespace Cert.Finite

open Idealize.ShloMosaic Idealize.ShloMosaic.ValueIdx Cert.Spec Idealize.SL.Sem

/-- The f32 pattern with every exponent bit set and no fraction bit denotes +∞. -/
theorem ofBits_inf : Ideal.ofBits .f32 0x7F800000#32 = (⊤ : EReal) := by
  simp [Ideal.ofBits, Ideal.ieee]

/-- An extended real whose absolute value max x (-x) is strictly below +∞ is a real: at -∞ the absolute value is +∞, and
    at +∞ it is +∞, neither strictly below +∞. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- An array of shape [A, B] every entry of which is a real is the array of a real matrix: the matrix's entry (p, q) is the
    real chosen at the index with coordinates p and q, and every index is the index of its two coordinates. -/
theorem arr2_of_real {A B : ℕ} (a : (⟨2, ![A, B]⟩ : Shape).Idx → EReal) (h : ∀ i, ∃ r : ℝ, a i = (r : EReal)) :
    ∃ f : Fin A → Fin B → ℝ, a = arr2 f := by
  choose r hr using h
  refine ⟨fun p q => r (ix2 p q), funext fun i => ?_⟩
  rw [hr i, arr2_apply]
  exact congrArg (fun j => ((r j : ℝ) : EReal)) (eq_ix2 i)

/-- The scalar shape has one index. -/
local instance : Subsingleton Cert.Pre_finite_inputs.S_.Idx := ⟨fun a b => funext fun d => d.elim0⟩

/-- The printed predicate being 1 says every entry of each of its four arrays is a real: the predicate is the conjunction of
    four conjunctions over all entries, one per array, of |entry| < +∞. -/
theorem entries_real [Cert.Pre_finite_inputs.Facts]
    (a0 : FVec Ideal Cert.Pre_finite_inputs.S8192x1024 .f32) (a1 a2 a3 : FVec Ideal Cert.Pre_finite_inputs.S1024x1024 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt_top _ (Host.reduce_andi_all _ _ _ _ _ e0 i),
    fun i => real_of_abs_lt_top _ (Host.reduce_andi_all _ _ _ _ _ e1 i),
    fun i => real_of_abs_lt_top _ (Host.reduce_andi_all _ _ _ _ _ e2 i),
    fun i => real_of_abs_lt_top _ (Host.reduce_andi_all _ _ _ _ _ e3 i)⟩

/-- Under the precondition, on every core each of the four argument arrays is an array of reals. -/
theorem real_inputs [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (x : Fin 8192 → Fin 1024 → ℝ) (wq wk wv : Fin 1024 → Fin 1024 → ℝ),
      (m ((c.tc : Thread Cert.KernelIdeal.nD Cert.KernelIdeal.τ).loc Cert.KernelIdeal.main_arg0) : Cert.KernelIdeal.S8192x1024.Idx → EReal) = arr2 x
      ∧ (m ((c.tc : Thread Cert.KernelIdeal.nD Cert.KernelIdeal.τ).loc Cert.KernelIdeal.main_arg1) : Cert.KernelIdeal.S1024x1024.Idx → EReal) = arr2 wq
      ∧ (m ((c.tc : Thread Cert.KernelIdeal.nD Cert.KernelIdeal.τ).loc Cert.KernelIdeal.main_arg2) : Cert.KernelIdeal.S1024x1024.Idx → EReal) = arr2 wk
      ∧ (m ((c.tc : Thread Cert.KernelIdeal.nD Cert.KernelIdeal.τ).loc Cert.KernelIdeal.main_arg3) : Cert.KernelIdeal.S1024x1024.Idx → EReal) = arr2 wv := by
  obtain ⟨r0, r1, r2, r3⟩ := entries_real _ _ _ _ (h c)
  obtain ⟨x, hx⟩ := arr2_of_real _ r0
  obtain ⟨wq, hq⟩ := arr2_of_real _ r1
  obtain ⟨wk, hk⟩ := arr2_of_real _ r2
  obtain ⟨wv, hv⟩ := arr2_of_real _ r3
  exact ⟨x, wq, wk, wv, hx, hq, hk, hv⟩

end Cert.Finite

end
-- ==== Proof.RefG.lean ====
/-
  The reference program's result, on real inputs, is the attention of Spec.lean.
-/
import proofs.«416736_j36129264893953_3_alg».proof.Proof.Gen.ReferenceIdeal.Read
import proofs.«416736_j36129264893953_3_alg».proof.Proof.Spec

noncomputable section

namespace Cert.RefG

open Idealize.ShloMosaic Idealize.ShloMosaic.ValueIdx Cert.Spec
open Cert.ReferenceIdeal Cert.ReferenceIdeal.Gen
open Cert.ReferenceIdeal.Read

/-- Entry (i, d) of the first projection stage: the real sum over k of x (i, k) · w (d, k). -/
theorem proj_read (x : Fin 8192 → Fin 1024 → ℝ) (w : Fin 1024 → Fin 1024 → ℝ) (i : Fin 8192) (d : Fin 1024) :
    val_main_v1 (F := Ideal) (arr2 x) (arr2 w) (ix2 i d) = ((proj x w i d : ℝ) : EReal) := by
  rw [val_main_v1_apply]
  unfold proj
  rw [OnlineSoftmax.coe_sum]
  refine Finset.sum_congr rfl fun k _ => ?_
  rw [val_main_v0_apply, EReal.coe_mul]
  rfl

/-- The three projection stages are one function of their two operands. -/
theorem v3_eq_v1 (a : (⟨S8192x1024, .f32⟩ : BufTy).Contents (Elt Ideal)) (b : (⟨S1024x1024, .f32⟩ : BufTy).Contents (Elt Ideal)) :
    val_main_v3 (F := Ideal) a b = val_main_v1 (F := Ideal) a b := rfl
theorem v5_eq_v1 (a : (⟨S8192x1024, .f32⟩ : BufTy).Contents (Elt Ideal)) (b : (⟨S1024x1024, .f32⟩ : BufTy).Contents (Elt Ideal)) :
    val_main_v5 (F := Ideal) a b = val_main_v1 (F := Ideal) a b := rfl

/-- The f32 pattern 0x44800000 is 1024; its square root is 32. -/
theorem sqrt_1024 : Ideal.sqrt (Ideal.ofBits .f32 0x44800000#32) = ((32 : ℝ) : EReal) := by
  have h : Ideal.ofBits .f32 0x44800000#32 = ((1024 : ℝ) : EReal) := by
    simp [Ideal.ofBits, Ideal.ieee, -EReal.coe_mul]; norm_num
  rw [h, Ideal.sqrt_coe, if_neg (by norm_num)]
  congr 1
  rw [show (1024 : ℝ) = 32 ^ 2 by norm_num]
  exact Real.sqrt_sq (by norm_num)

/-- The broadcast divisor, at every index, is 32. -/
theorem v9_read (j : S8192x8192.Idx) : val_main_v9 (F := Ideal) j = ((32 : ℝ) : EReal) := by
  rw [val_main_v9_apply, val_main_v8_apply, val_main_cst_apply]
  exact sqrt_1024

/-- Entry (i, j) of the product of the query and key projections: the real sum over d. -/
theorem v7_read (x : Fin 8192 → Fin 1024 → ℝ) (wq wk : Fin 1024 → Fin 1024 → ℝ) (i j : Fin 8192) :
    val_main_v7 (F := Ideal) (arr2 x) (arr2 wq) (arr2 wk) (ix2 i j) = ((score (proj x wq) (proj x wk) i j : ℝ) : EReal) := by
  rw [val_main_v7_apply]
  unfold score
  rw [OnlineSoftmax.coe_sum]
  refine Finset.sum_congr rfl fun k _ => ?_
  rw [val_main_v6_apply, v3_eq_v1, EReal.coe_mul, ← proj_read, ← proj_read]
  rfl

/-- Entry (i, j) of the scores: the score of Spec.lean with the query's weights scaled. -/
theorem v10_read (x : Fin 8192 → Fin 1024 → ℝ) (wq wk : Fin 1024 → Fin 1024 → ℝ) (i j : Fin 8192) :
    val_main_v10 (F := Ideal) (arr2 x) (arr2 wq) (arr2 wk) (ix2 i j)
      = ((score (proj x (scaled wq)) (proj x wk) i j : ℝ) : EReal) := by
  rw [val_main_v10_apply, v7_read, v9_read, Ideal.hostDivf_def, Ideal.div_coe (by norm_num), ← EReal.coe_mul, score_scaled,
    ← div_eq_mul_one_div]

/-- Row i of the scores, as reals. -/
def srow (x : Fin 8192 → Fin 1024 → ℝ) (wq wk : Fin 1024 → Fin 1024 → ℝ) (i : Fin 8192) : Fin (16 * 512) → ℝ :=
  fun j => score (proj x (scaled wq)) (proj x wk) i j

/-- The row's maximum as the program forms it: folded from -∞, then met with -∞. -/
def rmax (x : Fin 8192 → Fin 1024 → ℝ) (wq wk : Fin 1024 → Fin 1024 → ℝ) (i : Fin 8192) : EReal :=
  max ⊥ (Finset.univ.fold max (⊥ : EReal) (fun j => ((srow x wq wk i j : ℝ) : EReal)))

/-- The f32 pattern 0xFF800000 is -∞. -/
theorem ofBits_neg_inf : Ideal.ofBits .f32 0xFF800000#32 = (⊥ : EReal) := by
  simp [Ideal.ofBits, Ideal.ieee]

/-- The reduced index i with column k put back is (i, k). -/
theorem lift_ix2 (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- The max-reduce of row i: the fold of the maximum from -∞ over the row's scores. -/
theorem v11_read (x : Fin 8192 → Fin 1024 → ℝ) (wq wk : Fin 1024 → Fin 1024 → ℝ) (i : Fin 8192) :
    val_main_v11 (F := Ideal) (arr2 x) (arr2 wq) (arr2 wk) (ix1 i)
      = Finset.univ.fold max (⊥ : EReal) (fun j => ((srow x wq wk i j : ℝ) : EReal)) := by
  unfold val_main_v11
  have h : S8192x8192.Reduces [1] S8192 := by decide
  rw [Host.reduce_eq_fold_single FloatOps.maximumf _ _ reducesTo_S8192x8192_S8192_d1 h h_S_, val_main_cst_0_apply,
    Ideal.ofBits_def, ofBits_neg_inf]
  have hf : (val_main_v10 (F := Ideal) (arr2 x) (arr2 wq) (arr2 wk) ∘ h.lift (ix1 i))
      = fun j : Fin (16 * 512) => ((srow x wq wk i j : ℝ) : EReal) :=
    funext fun k => by
      show val_main_v10 (F := Ideal) (arr2 x) (arr2 wq) (arr2 wk) (h.lift (ix1 i) k) = _
      rw [lift_ix2, v10_read]; rfl
  rw [hf]
  rfl

/-- The index maps of the layout stages, at explicit coordinates. -/
theorem idx14_15 (i j : Fin 8192) : idx_main_v14 (idx_main_v15 (ix2 i j)) = ix1 i :=
  funext fun a => match a with | ⟨0, _⟩ => rfl
theorem idx19_20 (i j : Fin 8192) : idx_main_v19 (idx_main_v20 (ix2 i j)) = ix1 i :=
  funext fun a => match a with | ⟨0, _⟩ => rfl
theorem idx18 (i k : Fin 8192) : idx_main_v18 (ix1 i) k = ix2 i k :=
  funext fun a => match a with | ⟨0, _⟩ => rfl | ⟨1, _⟩ => rfl
theorem lidx22 (i : Fin 8192) (d : Fin 1024) (k : Fin 8192) : lidx_main_v22 (ix2 i d) k = ix2 i k :=
  funext fun a => match a with | ⟨0, _⟩ => rfl | ⟨1, _⟩ => rfl
theorem ridx22 (i : Fin 8192) (d : Fin 1024) (k : Fin 8192) : ridx_main_v22 (ix2 i d) k = ix2 k d :=
  funext fun a => match a with | ⟨0, _⟩ => rfl | ⟨1, _⟩ => rfl

/-- The maximum stage at row i: the fold met with -∞ once more. -/
theorem v13_read (x : Fin 8192 → Fin 1024 → ℝ) (wq wk : Fin 1024 → Fin 1024 → ℝ) (i : Fin 8192) :
    val_main_v13 (F := Ideal) (arr2 x) (arr2 wq) (arr2 wk) (ix1 i) = rmax x wq wk i := by
  rw [val_main_v13_apply, v11_read, val_main_v12_apply, val_main_cst_1_apply, Ideal.ofBits_def, ofBits_neg_inf]
  rfl

/-- Entry (i, j) of the exponentials: the exponential of the score less the row's maximum. -/
theorem v17_read (x : Fin 8192 → Fin 1024 → ℝ) (wq wk : Fin 1024 → Fin 1024 → ℝ) (i j : Fin 8192) :
    val_main_v17 (F := Ideal) (arr2 x) (arr2 wq) (arr2 wk) (ix2 i j)
      = Ideal.exp (((srow x wq wk i j : ℝ) : EReal) - rmax x wq wk i) := by
  rw [val_main_v17_apply, val_main_v16_apply, v10_read, val_main_v15_apply, val_main_v14_apply, idx14_15, v13_read,
    Ideal.hostUnary_exp_def, Ideal.subf_def]
  rfl

/-- The sum stage at row i: 0 plus the sum of the row's exponentials. -/
theorem v18_read (x : Fin 8192 → Fin 1024 → ℝ) (wq wk : Fin 1024 → Fin 1024 → ℝ) (i : Fin 8192) :
    val_main_v18 (F := Ideal) (arr2 x) (arr2 wq) (arr2 wk) (ix1 i)
      = (0 : EReal) + ∑ j : Fin (16 * 512), Ideal.exp (((srow x wq wk i j : ℝ) : EReal) - rmax x wq wk i) := by
  rw [val_main_v18_apply, val_main_cst_2_apply, Ideal.ofBits_def, Ideal.ofBits_zero_f32]
  refine congrArg ((0 : EReal) + ·) ?_
  refine Finset.sum_congr rfl fun k _ => ?_
  rw [idx18, v17_read]

/-- Entry (i, j) of the softmax: the exponential over the row's sum. -/
theorem v21_read (x : Fin 8192 → Fin 1024 → ℝ) (wq wk : Fin 1024 → Fin 1024 → ℝ) (i j : Fin 8192) :
    val_main_v21 (F := Ideal) (arr2 x) (arr2 wq) (arr2 wk) (ix2 i j)
      = Ideal.div (Ideal.exp (((srow x wq wk i j : ℝ) : EReal) - rmax x wq wk i))
          ((0 : EReal) + ∑ j' : Fin (16 * 512), Ideal.exp (((srow x wq wk i j' : ℝ) : EReal) - rmax x wq wk i)) := by
  rw [val_main_v21_apply, v17_read, val_main_v20_apply, val_main_v19_apply, idx19_20, v18_read]
  rfl

/-- On real inputs the reference's result array is G of them. -/
theorem ref_eq (x : Fin 8192 → Fin 1024 → ℝ) (wq wk wv : Fin 1024 → Fin 1024 → ℝ) :
    Cert.ReferenceIdeal.Read.val_main_v22 (F := Ideal) (arr2 x) (arr2 wq) (arr2 wk) (arr2 wv) = G x wq wk wv := by
  funext idx
  obtain ⟨i, d, rfl⟩ : ∃ (i : Fin 8192) (d : Fin 1024), idx = ix2 i d := ⟨idx 0, idx 1, eq_ix2 idx⟩
  rw [val_main_v22_apply]
  show _ = attnRow (fun j => score (proj x (scaled wq)) (proj x wk) i j) (fun j => proj x wv j d)
  unfold attnRow
  refine Finset.sum_congr rfl fun k _ => ?_
  rw [lidx22, ridx22, v21_read, v5_eq_v1, proj_read, mul_comm]
  rfl

end Cert.RefG

end
-- ==== Proof.lean ====
/-
  The certificate: a blocked single-head attention program of two pallas_calls against plain attention.

  The program projects x on three weight matrices, the query's weights scaled by 1/32 = 1/√1024 beforehand (first call:
  three matrix products per block of 1024 rows), then walks, for each block of 1024 query rows, the 16 blocks of 512 key
  and value rows with an online softmax: running row maxima, running sums of exponentials and running weighted sums,
  rescaled at each block, and divides at the end (second call). The reference computes the scores whole, divides them by
  √1024, takes the softmax of each row and multiplies by the values.

  Frames (Proof/KI, and Proof/K for the program read word by word): each call runs point by point from named buffer
  contents; the second call's invariant names what the three kept buffers hold after every point; every weakly fair
  execution terminates with every unscoped buffer at the contents folded from the launch memory, and no argument is ever
  written. Values, at the ideal instance and on finite inputs, which are arrays of reals (Proof/Finite): the first call
  leaves the three projections (Proof/KI/Val0), the second attention of them (Proof/KI/Val1: each row's walk is the online
  softmax, whose result is the plain softmax-weighted sum); the reference is the same function (Proof/RefG): scaling the
  query's weights by 1/32 is dividing the scores by 32, and the sum of quotients is the quotient of the sum since the sum of
  the exponentials is a positive real.
-/
import proofs.«416736_j36129264893953_3_alg».proof.Defs
import proofs.«416736_j36129264893953_3_alg».proof.Proof.Gen.Kernel
import proofs.«416736_j36129264893953_3_alg».proof.Proof.Gen.KernelIdeal
import proofs.«416736_j36129264893953_3_alg».proof.Proof.Gen.ReferenceIdeal
import proofs.«416736_j36129264893953_3_alg».proof.Proof.Gen.Pre_finite_inputs
import proofs.«416736_j36129264893953_3_alg».proof.Proof.Gen.ReferenceIdeal.Run
import proofs.«416736_j36129264893953_3_alg».proof.Proof.Gen.ReferenceIdeal.Read
import proofs.«416736_j36129264893953_3_alg».proof.Proof.K.Run
import proofs.«416736_j36129264893953_3_alg».proof.Proof.KI.Run
import proofs.«416736_j36129264893953_3_alg».proof.Proof.KI.HostVal
import proofs.«416736_j36129264893953_3_alg».proof.Proof.KI.Val0
import proofs.«416736_j36129264893953_3_alg».proof.Proof.KI.Val1
import proofs.«416736_j36129264893953_3_alg».proof.Proof.Finite
import proofs.«416736_j36129264893953_3_alg».proof.Proof.RefG
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section Value

open Cert.KernelIdeal Cert.KernelIdeal.Gen Cert.KernelIdeal.Hand

variable (m : (ℓ : Loc nD τ sig) → Buf (Elt Ideal) ℓ) (ρ : Dev nD → PrngReg)

/-- On real inputs the program's result array is G of them: the host operations scale the query's weights, the first call
    projects, the second attends. -/
theorem kernel_value (c : Dev nD) (x : Fin 8192 → Fin 1024 → ℝ) (wq wk wv : Fin 1024 → Fin 1024 → ℝ)
    (hx : (m ((c.tc : Thread nD τ).loc main_arg0) : S8192x1024.Idx → EReal) = arr2 x)
    (hwq : (m ((c.tc : Thread nD τ).loc main_arg1) : S1024x1024.Idx → EReal) = arr2 wq)
    (hwk : (m ((c.tc : Thread nD τ).loc main_arg2) : S1024x1024.Idx → EReal) = arr2 wk)
    (hwv : (m ((c.tc : Thread nD τ).loc main_arg3) : S1024x1024.Idx → EReal) = arr2 wv) :
    ((dat1 (V2 m ρ) c).arrAt 3 cfg1.N : S8192x1024.Idx → EReal) = G x wq wk wv := by
  have hx1 : (V1 m ρ c main_arg0 : S8192x1024.Idx → EReal) = arr2 x := (host_arg0 m c).trans hx
  have hq : (V2 m ρ c main_v5_0 : S8192x1024.Idx → EReal) = arr2 (proj x (scaled wq)) :=
    (W2_arr m ρ c 4).trans (arr_q (V1 m ρ) c x (scaled wq) hx1 (host_v2 m c wq hwq))
  have hk : (V2 m ρ c main_v5_1 : S8192x1024.Idx → EReal) = arr2 (proj x wk) :=
    (W2_arr m ρ c 5).trans (arr_k (V1 m ρ) c x wk hx1 (host_v3 m c wk hwk))
  have hv : (V2 m ρ c main_v5_2 : S8192x1024.Idx → EReal) = arr2 (proj x wv) :=
    (W2_arr m ρ c 6).trans (arr_v (V1 m ρ) c x wv hx1 (host_v4 m c wv hwv))
  exact arr_out (V2 m ρ) c _ _ _ hq hk hv

end Value

/-- Both programs end at G of the real inputs. -/
theorem algebraic : Cert.algebraic_KernelIdeal_ReferenceIdeal := by
  intro m ρ m' ρ' hpre hagree
  refine ⟨fun c => (Cert.KernelIdeal.Hand.dat1 (Cert.KernelIdeal.Hand.V2 m ρ) c).arrAt 3 Cert.KernelIdeal.cfg1.N,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨x, wq, wk, wv, hx, hwq, hwk, hwv⟩ := Cert.Finite.real_inputs m hpre c
  rw [(hagree c).1, (hagree c).2.1, (hagree c).2.2.1, (hagree c).2.2.2]
  refine (Cert.ReferenceIdeal.Read.val_main_v22_eq _ _ _ _).trans ?_
  rw [hx, hwq, hwk, hwv]
  exact (Cert.RefG.ref_eq x wq wk wv).trans (kernel_value m ρ c x wq wk wv hx hwq hwk hwv).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
